-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x100000x3 : Shape := ⟨3, ![64, 100000, 3]⟩
abbrev S23x3 : Shape := ⟨2, ![23, 3]⟩
abbrev S_ : Shape := ⟨0, ![]⟩

class Facts : Prop where
  bcast_S_S64x100000x3 : S_.BroadcastsInDim S64x100000x3 (![] : Fin 0 → Fin S64x100000x3.rank)
  reducesTo_S64x100000x3_S_d0_1_2 : S64x100000x3.ReducesTo [0, 1, 2] S_
  h_S_ : 0 < S_.numel
  bcast_S_S23x3 : S_.BroadcastsInDim S23x3 (![] : Fin 0 → Fin S23x3.rank)
  reducesTo_S23x3_S_d0_1 : S23x3.ReducesTo [0, 1] S_

variable [Facts]

def fn {F : FTy → Type} [FloatOps F] (main_arg0 : FVec F S64x100000x3 .f32) (main_arg1 : FVec F S23x3 .f32) (main_arg2 : FVec F S23x3 .f32) : IVec S_ 1 :=
  let main_v0 : FVec F S64x100000x3 .f32 := Host.absf main_arg0
  let main_cst : FVec F S_ .f32 := constant S_ .f32 0x7F800000#32
  let main_v1 : FVec F S64x100000x3 .f32 := broadcastInDim S64x100000x3 ![] bcast_S_S64x100000x3 main_cst
  let main_v2 : IVec S64x100000x3 1 := cmpf .olt main_v0 main_v1
  let main_c : IVec S_ 1 := constantI S_ 1 1#1
  let main_v3 : IVec S_ 1 := (fun x v => Host.reduce IntOp.andi x v reducesTo_S64x100000x3_S_d0_1_2 h_S_) main_v2 main_c
  let main_v4 : FVec F S23x3 .f32 := Host.absf main_arg1
  let main_cst_0 : FVec F S_ .f32 := constant S_ .f32 0x7F800000#32
  let main_v5 : FVec F S23x3 .f32 := broadcastInDim S23x3 ![] bcast_S_S23x3 main_cst_0
  let main_v6 : IVec S23x3 1 := cmpf .olt main_v4 main_v5
  let main_c_1 : IVec S_ 1 := constantI S_ 1 1#1
  let main_v7 : IVec S_ 1 := (fun x v => Host.reduce IntOp.andi x v reducesTo_S23x3_S_d0_1 h_S_) main_v6 main_c_1
  let main_v8 : IVec S_ 1 := andi main_v3 main_v7
  let main_v9 : FVec F S23x3 .f32 := Host.absf main_arg2
  let main_cst_2 : FVec F S_ .f32 := constant S_ .f32 0x7F800000#32
  let main_v10 : FVec F S23x3 .f32 := broadcastInDim S23x3 ![] bcast_S_S23x3 main_cst_2
  let main_v11 : IVec S23x3 1 := cmpf .olt main_v9 main_v10
  let main_c_3 : IVec S_ 1 := constantI S_ 1 1#1
  let main_v12 : IVec S_ 1 := (fun x v => Host.reduce IntOp.andi x v reducesTo_S23x3_S_d0_1 h_S_) main_v11 main_c_3
  let main_v13 : IVec S_ 1 := andi main_v8 main_v12
  main_v13
-- ==== Kernel.lean ====
abbrev S64x100000x3 : Shape := ⟨3, ![64, 100000, 3]⟩
abbrev S23x3 : Shape := ⟨2, ![23, 3]⟩
abbrev S1x4000x3 : Shape := ⟨3, ![1, 4000, 3]⟩
abbrev S4000x3 : Shape := ⟨2, ![4000, 3]⟩
abbrev S4000x1 : Shape := ⟨2, ![4000, 1]⟩
abbrev S1x3 : Shape := ⟨2, ![1, 3]⟩

abbrev nBuf : Space → Nat
  | .hbm => 5
  | .vmem => 5
  | .smem => 0
  | _ => 0

abbrev bufTy : (tb : Table) → Fin (tcTables nBuf tb) → BufTy
  | .hbm, ⟨0, _⟩ => ⟨S64x100000x3, .f32⟩
  | .hbm, ⟨1, _⟩ => ⟨S23x3, .f32⟩
  | .hbm, ⟨2, _⟩ => ⟨S23x3, .f32⟩
  | .hbm, ⟨3, _⟩ => ⟨S23x3, .f32⟩
  | .hbm, ⟨4, _⟩ => ⟨S64x100000x3, .f32⟩
  | .local _ .vmem, ⟨0, _⟩ => ⟨S1x4000x3, .f32⟩
  | .local _ .vmem, ⟨1, _⟩ => ⟨S1x4000x3, .f32⟩
  | .local _ .vmem, ⟨2, _⟩ => ⟨S23x3, .f32⟩
  | .local _ .vmem, ⟨3, _⟩ => ⟨S1x4000x3, .f32⟩
  | .local _ .vmem, ⟨4, _⟩ => ⟨S1x4000x3, .f32⟩
  | _, _ => ⟨S64x100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![64, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S23x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x4000x3_S1x4000x3_0_0_0 : ∀ a, (![0, 0, 0] : Fin 3 → Nat) a + S1x4000x3.size a ≤ S1x4000x3.size a
  h_S1x4000x3 : 0 < S1x4000x3.numel
  shapeCasts_S1x4000x3_S4000x3 : S1x4000x3.ShapeCasts S4000x3
  inb_S23x3_S23x3_0_0 : ∀ a, (![0, 0] : Fin 2 → Nat) a + S23x3.size a ≤ S23x3.size a
  h_S23x3 : 0 < S23x3.numel
  shapeCasts_S23x3_S23x3 : S23x3.ShapeCasts S23x3
  slices_S4000x3_o0_0_S4000x1 : S4000x3.Slices ![0, 0] S4000x1
  slices_S4000x3_o0_1_S4000x1 : S4000x3.Slices ![0, 1] S4000x1
  slices_S4000x3_o0_2_S4000x1 : S4000x3.Slices ![0, 2] S4000x1
  slices_S23x3_o0_0_S1x3 : S23x3.Slices ![0, 0] S1x3
  shapeCasts_S1x3_S1x3 : S1x3.ShapeCasts S1x3
  broadcasts_S1x3_S4000x3 : S1x3.Broadcasts S4000x3
  slices_S23x3_o1_0_S1x3 : S23x3.Slices ![1, 0] S1x3
  broadcasts_S4000x1_S4000x3 : S4000x1.Broadcasts S4000x3
  slices_S23x3_o2_0_S1x3 : S23x3.Slices ![2, 0] S1x3
  slices_S23x3_o3_0_S1x3 : S23x3.Slices ![3, 0] S1x3
  slices_S23x3_o4_0_S1x3 : S23x3.Slices ![4, 0] S1x3
  slices_S23x3_o5_0_S1x3 : S23x3.Slices ![5, 0] S1x3
  slices_S23x3_o6_0_S1x3 : S23x3.Slices ![6, 0] S1x3
  slices_S23x3_o7_0_S1x3 : S23x3.Slices ![7, 0] S1x3
  slices_S23x3_o8_0_S1x3 : S23x3.Slices ![8, 0] S1x3
  slices_S23x3_o9_0_S1x3 : S23x3.Slices ![9, 0] S1x3
  slices_S23x3_o10_0_S1x3 : S23x3.Slices ![10, 0] S1x3
  slices_S23x3_o11_0_S1x3 : S23x3.Slices ![11, 0] S1x3
  slices_S23x3_o12_0_S1x3 : S23x3.Slices ![12, 0] S1x3
  slices_S23x3_o13_0_S1x3 : S23x3.Slices ![13, 0] S1x3
  slices_S23x3_o14_0_S1x3 : S23x3.Slices ![14, 0] S1x3
  slices_S23x3_o15_0_S1x3 : S23x3.Slices ![15, 0] S1x3
  slices_S23x3_o16_0_S1x3 : S23x3.Slices ![16, 0] S1x3
  slices_S23x3_o17_0_S1x3 : S23x3.Slices ![17, 0] S1x3
  slices_S23x3_o18_0_S1x3 : S23x3.Slices ![18, 0] S1x3
  slices_S23x3_o19_0_S1x3 : S23x3.Slices ![19, 0] S1x3
  slices_S23x3_o20_0_S1x3 : S23x3.Slices ![20, 0] S1x3
  slices_S23x3_o21_0_S1x3 : S23x3.Slices ![21, 0] S1x3
  slices_S23x3_o22_0_S1x3 : S23x3.Slices ![22, 0] S1x3
  shapeCasts_S4000x3_S1x4000x3 : S4000x3.ShapeCasts S1x4000x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4000x3.size a ≤ S64x100000x3.size a
  hwx0_0 : ∀ i : grid0.Coords, EltTy.bits .f32 = 32 ∨ (Rect.block (s := S64x100000x3) S1x4000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S23x3.size a ≤ S23x3.size a
  hwx0_1 : ∀ i : grid0.Coords, EltTy.bits .f32 = 32 ∨ (Rect.block (s := S23x3) S23x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4000x3.size a ≤ S64x100000x3.size a
  hwx0_2 : ∀ i : grid0.Coords, EltTy.bits .f32 = 32 ∨ (Rect.block (s := S64x100000x3) S1x4000x3.size (cc0_transform_2 i) (hinb0_2 i)).WholeWords (EltTy.packing .f32)

variable [Facts₀]

abbrev win0_0 : Pipeline.Window sig grid0 :=
  Pipeline.Window.ofSpec (Memref.whole main_arg0) S1x4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S23x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4000x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x100000x3 : Shape := ⟨3, ![64, 100000, 3]⟩
abbrev S23x3 : Shape := ⟨2, ![23, 3]⟩
abbrev S_ : Shape := ⟨0, ![]⟩
abbrev S64x100000 : Shape := ⟨2, ![64, 100000]⟩
abbrev S64x100000x1 : Shape := ⟨3, ![64, 100000, 1]⟩
abbrev S64x100000x16 : Shape := ⟨3, ![64, 100000, 16]⟩
abbrev S64x100000x4 : Shape := ⟨3, ![64, 100000, 4]⟩
abbrev S64x100000x20 : Shape := ⟨3, ![64, 100000, 20]⟩
abbrev S64x100000x23 : Shape := ⟨3, ![64, 100000, 23]⟩

abbrev nBuf : Space → Nat
  | .hbm => 148
  | .vmem => 0
  | .smem => 0
  | _ => 0

abbrev hbmTy0_0 (i : Nat) : BufTy := match i % 128 with
  | 0 => ⟨S64x100000x3, .f32⟩
  | 1 => ⟨S23x3, .f32⟩
  | 2 => ⟨S23x3, .f32⟩
  | 3 => ⟨S_, .f32⟩
  | 4 => ⟨S64x100000, .f32⟩
  | 5 => ⟨S64x100000x1, .f32⟩
  | 6 => ⟨S64x100000, .f32⟩
  | 7 => ⟨S64x100000x1, .f32⟩
  | 8 => ⟨S64x100000, .f32⟩
  | 9 => ⟨S64x100000x1, .f32⟩
  | 10 => ⟨S64x100000, .f32⟩
  | 11 => ⟨S64x100000x1, .f32⟩
  | 12 => ⟨S64x100000, .f32⟩
  | 13 => ⟨S64x100000x1, .f32⟩
  | 14 => ⟨S64x100000, .f32⟩
  | 15 => ⟨S64x100000, .f32⟩
  | 16 => ⟨S64x100000x1, .f32⟩
  | 17 => ⟨S64x100000, .f32⟩
  | 18 => ⟨S64x100000x1, .f32⟩
  | 19 => ⟨S64x100000, .f32⟩
  | 20 => ⟨S64x100000, .f32⟩
  | 21 => ⟨S64x100000x1, .f32⟩
  | 22 => ⟨S64x100000, .f32⟩
  | 23 => ⟨S64x100000x1, .f32⟩
  | 24 => ⟨S64x100000, .f32⟩
  | 25 => ⟨S64x100000, .f32⟩
  | 26 => ⟨S64x100000x1, .f32⟩
  | 27 => ⟨S64x100000, .f32⟩
  | 28 => ⟨S64x100000x1, .f32⟩
  | 29 => ⟨S64x100000, .f32⟩
  | 30 => ⟨S64x100000, .f32⟩
  | 31 => ⟨S64x100000x1, .f32⟩
  | 32 => ⟨S64x100000, .f32⟩
  | 33 => ⟨S64x100000x1, .f32⟩
  | 34 => ⟨S64x100000, .f32⟩
  | 35 => ⟨S64x100000, .f32⟩
  | 36 => ⟨S64x100000x1, .f32⟩
  | 37 => ⟨S64x100000, .f32⟩
  | 38 => ⟨S64x100000x1, .f32⟩
  | 39 => ⟨S64x100000, .f32⟩
  | 40 => ⟨S64x100000, .f32⟩
  | 41 => ⟨S64x100000x1, .f32⟩
  | 42 => ⟨S64x100000, .f32⟩
  | 43 => ⟨S64x100000x1, .f32⟩
  | 44 => ⟨S64x100000, .f32⟩
  | 45 => ⟨S64x100000, .f32⟩
  | 46 => ⟨S64x100000x1, .f32⟩
  | 47 => ⟨S64x100000, .f32⟩
  | 48 => ⟨S64x100000, .f32⟩
  | 49 => ⟨S64x100000x1, .f32⟩
  | 50 => ⟨S64x100000, .f32⟩
  | 51 => ⟨S64x100000x1, .f32⟩
  | 52 => ⟨S64x100000, .f32⟩
  | 53 => ⟨S64x100000, .f32⟩
  | 54 => ⟨S64x100000x1, .f32⟩
  | 55 => ⟨S64x100000, .f32⟩
  | 56 => ⟨S64x100000, .f32⟩
  | 57 => ⟨S64x100000x1, .f32⟩
  | 58 => ⟨S64x100000, .f32⟩
  | 59 => ⟨S64x100000x1, .f32⟩
  | 60 => ⟨S64x100000, .f32⟩
  | 61 => ⟨S64x100000, .f32⟩
  | 62 => ⟨S64x100000x1, .f32⟩
  | 63 => ⟨S64x100000, .f32⟩
  | 64 => ⟨S64x100000, .f32⟩
  | 65 => ⟨S64x100000x1, .f32⟩
  | 66 => ⟨S64x100000, .f32⟩
  | 67 => ⟨S64x100000x1, .f32⟩
  | 68 => ⟨S64x100000, .f32⟩
  | 69 => ⟨S64x100000, .f32⟩
  | 70 => ⟨S64x100000x1, .f32⟩
  | 71 => ⟨S64x100000, .f32⟩
  | 72 => ⟨S64x100000, .f32⟩
  | 73 => ⟨S64x100000x1, .f32⟩
  | 74 => ⟨S64x100000, .f32⟩
  | 75 => ⟨S64x100000x1, .f32⟩
  | 76 => ⟨S64x100000, .f32⟩
  | 77 => ⟨S64x100000, .f32⟩
  | 78 => ⟨S64x100000x1, .f32⟩
  | 79 => ⟨S64x100000, .f32⟩
  | 80 => ⟨S64x100000, .f32⟩
  | 81 => ⟨S64x100000x1, .f32⟩
  | 82 => ⟨S64x100000, .f32⟩
  | 83 => ⟨S64x100000x1, .f32⟩
  | 84 => ⟨S64x100000, .f32⟩
  | 85 => ⟨S64x100000, .f32⟩
  | 86 => ⟨S64x100000x1, .f32⟩
  | 87 => ⟨S64x100000, .f32⟩
  | 88 => ⟨S64x100000, .f32⟩
  | 89 => ⟨S64x100000x1, .f32⟩
  | 90 => ⟨S64x100000, .f32⟩
  | 91 => ⟨S64x100000x1, .f32⟩
  | 92 => ⟨S64x100000, .f32⟩
  | 93 => ⟨S64x100000, .f32⟩
  | 94 => ⟨S64x100000x1, .f32⟩
  | 95 => ⟨S64x100000, .f32⟩
  | 96 => ⟨S64x100000, .f32⟩
  | 97 => ⟨S64x100000x1, .f32⟩
  | 98 => ⟨S64x100000, .f32⟩
  | 99 => ⟨S64x100000x1, .f32⟩
  | 100 => ⟨S64x100000, .f32⟩
  | 101 => ⟨S64x100000, .f32⟩
  | 102 => ⟨S64x100000x1, .f32⟩
  | 103 => ⟨S64x100000, .f32⟩
  | 104 => ⟨S64x100000, .f32⟩
  | 105 => ⟨S64x100000x1, .f32⟩
  | 106 => ⟨S64x100000, .f32⟩
  | 107 => ⟨S64x100000x1, .f32⟩
  | 108 => ⟨S64x100000, .f32⟩
  | 109 => ⟨S64x100000, .f32⟩
  | 110 => ⟨S64x100000x1, .f32⟩
  | 111 => ⟨S64x100000, .f32⟩
  | 112 => ⟨S64x100000, .f32⟩
  | 113 => ⟨S64x100000x1, .f32⟩
  | 114 => ⟨S64x100000, .f32⟩
  | 115 => ⟨S64x100000x1, .f32⟩
  | 116 => ⟨S64x100000, .f32⟩
  | 117 => ⟨S64x100000, .f32⟩
  | 118 => ⟨S64x100000x1, .f32⟩
  | 119 => ⟨S64x100000, .f32⟩
  | 120 => ⟨S64x100000, .f32⟩
  | 121 => ⟨S64x100000x1, .f32⟩
  | 122 => ⟨S64x100000x1, .f32⟩
  | 123 => ⟨S64x100000x1, .f32⟩
  | 124 => ⟨S64x100000x1, .f32⟩
  | 125 => ⟨S64x100000x1, .f32⟩
  | 126 => ⟨S64x100000x1, .f32⟩
  | 127 => ⟨S64x100000x1, .f32⟩
  | _ => ⟨S64x100000x3, .f32⟩

abbrev hbmTy0_1 (i : Nat) : BufTy := match i % 128 with
  | 0 => ⟨S64x100000x1, .f32⟩
  | 1 => ⟨S64x100000x1, .f32⟩
  | 2 => ⟨S64x100000x1, .f32⟩
  | 3 => ⟨S64x100000x1, .f32⟩
  | 4 => ⟨S64x100000x1, .f32⟩
  | 5 => ⟨S64x100000x1, .f32⟩
  | 6 => ⟨S64x100000x1, .f32⟩
  | 7 => ⟨S64x100000x1, .f32⟩
  | 8 => ⟨S64x100000x1, .f32⟩
  | 9 => ⟨S64x100000x1, .f32⟩
  | 10 => ⟨S64x100000x1, .f32⟩
  | 11 => ⟨S64x100000x1, .f32⟩
  | 12 => ⟨S64x100000x1, .f32⟩
  | 13 => ⟨S64x100000x16, .f32⟩
  | 14 => ⟨S64x100000x4, .f32⟩
  | 15 => ⟨S64x100000x20, .f32⟩
  | 16 => ⟨S64x100000x3, .f32⟩
  | 17 => ⟨S64x100000x23, .f32⟩
  | 18 => ⟨S23x3, .f32⟩
  | 19 => ⟨S64x100000x3, .f32⟩
  | _ => ⟨S64x100000x3, .f32⟩

abbrev hbmTy (i : Nat) : BufTy := match i / 128 with
  | 0 => hbmTy0_0 i
  | 1 => hbmTy0_1 i
  | _ => ⟨S64x100000x3, .f32⟩

abbrev bufTy : (tb : Table) → Fin (tcTables nBuf tb) → BufTy
  | .hbm, ⟨i, _⟩ => hbmTy i
  | _, _ => ⟨S64x100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev main_v101 : Ref sig .tc := ⟨.hbm, 105, rfl⟩
abbrev main_v102 : Ref sig .tc := ⟨.hbm, 106, rfl⟩
abbrev main_v103 : Ref sig .tc := ⟨.hbm, 107, rfl⟩
abbrev main_v104 : Ref sig .tc := ⟨.hbm, 108, rfl⟩
abbrev main_v105 : Ref sig .tc := ⟨.hbm, 109, rfl⟩
abbrev main_v106 : Ref sig .tc := ⟨.hbm, 110, rfl⟩
abbrev main_v107 : Ref sig .tc := ⟨.hbm, 111, rfl⟩
abbrev main_v108 : Ref sig .tc := ⟨.hbm, 112, rfl⟩
abbrev main_v109 : Ref sig .tc := ⟨.hbm, 113, rfl⟩
abbrev main_v110 : Ref sig .tc := ⟨.hbm, 114, rfl⟩
abbrev main_v111 : Ref sig .tc := ⟨.hbm, 115, rfl⟩
abbrev main_v112 : Ref sig .tc := ⟨.hbm, 116, rfl⟩
abbrev main_v113 : Ref sig .tc := ⟨.hbm, 117, rfl⟩
abbrev main_v114 : Ref sig .tc := ⟨.hbm, 118, rfl⟩
abbrev main_v115 : Ref sig .tc := ⟨.hbm, 119, rfl⟩
abbrev main_v116 : Ref sig .tc := ⟨.hbm, 120, rfl⟩
abbrev main_v117 : Ref sig .tc := ⟨.hbm, 121, rfl⟩
abbrev main_v118 : Ref sig .tc := ⟨.hbm, 122, rfl⟩
abbrev main_v119 : Ref sig .tc := ⟨.hbm, 123, rfl⟩
abbrev main_v120 : Ref sig .tc := ⟨.hbm, 124, rfl⟩
abbrev main_v121 : Ref sig .tc := ⟨.hbm, 125, rfl⟩
abbrev main_v122 : Ref sig .tc := ⟨.hbm, 126, rfl⟩
abbrev main_v123 : Ref sig .tc := ⟨.hbm, 127, rfl⟩
abbrev main_v124 : Ref sig .tc := ⟨.hbm, 128, rfl⟩
abbrev main_v125 : Ref sig .tc := ⟨.hbm, 129, rfl⟩
abbrev main_v126 : Ref sig .tc := ⟨.hbm, 130, rfl⟩
abbrev main_v127 : Ref sig .tc := ⟨.hbm, 131, rfl⟩
abbrev main_v128 : Ref sig .tc := ⟨.hbm, 132, rfl⟩
abbrev main_v129 : Ref sig .tc := ⟨.hbm, 133, rfl⟩
abbrev main_v130 : Ref sig .tc := ⟨.hbm, 134, rfl⟩
abbrev main_v131 : Ref sig .tc := ⟨.hbm, 135, rfl⟩
abbrev main_v132 : Ref sig .tc := ⟨.hbm, 136, rfl⟩
abbrev main_v133 : Ref sig .tc := ⟨.hbm, 137, rfl⟩
abbrev main_v134 : Ref sig .tc := ⟨.hbm, 138, rfl⟩
abbrev main_v135 : Ref sig .tc := ⟨.hbm, 139, rfl⟩
abbrev main_v136 : Ref sig .tc := ⟨.hbm, 140, rfl⟩
abbrev main_v137 : Ref sig .tc := ⟨.hbm, 141, rfl⟩
abbrev main_v138 : Ref sig .tc := ⟨.hbm, 142, rfl⟩
abbrev main_v139 : Ref sig .tc := ⟨.hbm, 143, rfl⟩
abbrev main_v140 : Ref sig .tc := ⟨.hbm, 144, rfl⟩
abbrev main_v141 : Ref sig .tc := ⟨.hbm, 145, rfl⟩
abbrev main_v142 : Ref sig .tc := ⟨.hbm, 146, rfl⟩
abbrev main_v143 : Ref sig .tc := ⟨.hbm, 147, rfl⟩

abbrev nD : Nat := 1
abbrev τ : Topo := Topo.v7x

variable {F : FTy → Type} [FloatOps F]

class Facts₀ : Prop where
  bcast_S_S64x100000 : S_.BroadcastsInDim S64x100000 (![] : Fin 0 → Fin S64x100000.rank)
  slices_S64x100000x3_S64x100000x1_0_0_0 : S64x100000x3.Slices ![0, 0, 0] S64x100000x1
  shapeCasts_S64x100000x1_S64x100000 : S64x100000x1.ShapeCasts S64x100000
  slices_S64x100000x3_S64x100000x1_0_0_1 : S64x100000x3.Slices ![0, 0, 1] S64x100000x1
  slices_S64x100000x3_S64x100000x1_0_0_2 : S64x100000x3.Slices ![0, 0, 2] S64x100000x1
  bcast_S64x100000_S64x100000x1_0_1 : S64x100000.BroadcastsInDim S64x100000x1 (![0, 1] : Fin 2 → Fin S64x100000x1.rank)
  concatenates_S64x100000x1_S64x100000x1_S64x100000x1_S64x100000x1_S64x100000x1_S64x100000x1_S64x100000x1_S64x100000x1_S64x100000x1_S64x100000x1_S64x100000x1_S64x100000x1_S64x100000x1_S64x100000x1_S64x100000x1_S64x100000x1_S64x100000x16_d2 : Shape.Concatenates [S64x100000x1, S64x100000x1, S64x100000x1, S64x100000x1, S64x100000x1, S64x100000x1, S64x100000x1, S64x100000x1, S64x100000x1, S64x100000x1, S64x100000x1, S64x100000x1, S64x100000x1, S64x100000x1, S64x100000x1, S64x100000x1] S64x100000x16 2
  concatenates_S64x100000x1_S64x100000x1_S64x100000x1_S64x100000x1_S64x100000x4_d2 : Shape.Concatenates [S64x100000x1, S64x100000x1, S64x100000x1, S64x100000x1] S64x100000x4 2
  concatenates_S64x100000x16_S64x100000x4_S64x100000x20_d2 : Shape.Concatenates [S64x100000x16, S64x100000x4] S64x100000x20 2
  concatenates_S64x100000x20_S64x100000x3_S64x100000x23_d2 : Shape.Concatenates [S64x100000x20, S64x100000x3] S64x100000x23 2
  dot_S64x100000x23_S23x3_S64x100000x3_2_0_01_1_n_n_wf : DotDims.WF S64x100000x23 S23x3 S64x100000x3 [2] [0] [0, 1] [1] [] []

variable [Facts₀]

def dot_S64x100000x23_S23x3_S64x100000x3_2_0_01_1_n_n : DotDims S64x100000x23 S23x3 S64x100000x3 where
  lhsContracting := [2]
  rhsContracting := [0]
  lhsNonContracting := [0, 1]
  rhsNonContracting := [1]
  lhsBatch := []
  rhsBatch := []
  wf := dot_S64x100000x23_S23x3_S64x100000x3_2_0_01_1_n_n_wf

class Facts : Prop extends Facts₀ where

variable [Facts]
-- ==== Proof.Features.lean ====
/-
  The function both programs compute, and the one law between their two arrangements of it.

  For a row `(a, b, c)` of three reals the candidate library is the 23 terms
    1;  a, b, c;  a², ab, ac, b², bc, c²;  a³, a²b, a²c, ab², abc, ac², b³, b²c, bc², c³;  sin a, sin b, sin c
  (every monomial of degree at most three in lexicographic order, each product grouped from the left, then the three
  sines), and the result at output channel `s` is their contraction with column `s` of a 23 × 3 coefficient matrix
  `κ`. One program writes the contraction as a sum over the 23 terms (`∑ l, feat l * κ l`); the other accumulates it
  term by term starting from `κ 0` itself, never multiplying by the constant term `1` (`rowOut`). On the extended
  reals the two agree: addition there is associative, so the left fold is the sum, and `1 * κ 0 = κ 0`. Neither fact
  needs the entries to be finite, so nothing here asks it of them.
-/
import Idealize.ShloMosaic.PureOps.Ideal
import Idealize.ShloMosaic.Lib.ValueIdx
import Mathlib.Algebra.BigOperators.Fin

noncomputable section

open Idealize.ShloMosaic Idealize.ShloMosaic.ValueIdx
open scoped BigOperators

namespace Cert.Proof.Features

/-- The contraction of a row's 23 library terms with one column `κ` of the coefficients, accumulated term by term
    from `κ 0`: the constant term contributes `κ 0` as it stands, each later term its product with its coefficient,
    added on the right of everything before it. `X 0, X 1, X 2` are the row's three entries. -/
def rowOut (X : Fin 3 → EReal) (κ : Fin 23 → EReal) : EReal :=
  κ 0 + X 0 * κ 1 + X 1 * κ 2 + X 2 * κ 3
  + X 0 * X 0 * κ 4 + X 0 * X 1 * κ 5 + X 0 * X 2 * κ 6 + X 1 * X 1 * κ 7 + X 1 * X 2 * κ 8 + X 2 * X 2 * κ 9
  + X 0 * X 0 * X 0 * κ 10 + X 0 * X 0 * X 1 * κ 11 + X 0 * X 0 * X 2 * κ 12 + X 0 * X 1 * X 1 * κ 13
  + X 0 * X 1 * X 2 * κ 14 + X 0 * X 2 * X 2 * κ 15 + X 1 * X 1 * X 1 * κ 16 + X 1 * X 1 * X 2 * κ 17
  + X 1 * X 2 * X 2 * κ 18 + X 2 * X 2 * X 2 * κ 19
  + Ideal.sin (X 0) * κ 20 + Ideal.sin (X 1) * κ 21 + Ideal.sin (X 2) * κ 22

/-- The 23 library terms of a row, in the order the coefficient matrix's rows are laid out. -/
def feat (X : Fin 3 → EReal) : Fin 23 → EReal :=
  ![1, X 0, X 1, X 2,
    X 0 * X 0, X 0 * X 1, X 0 * X 2, X 1 * X 1, X 1 * X 2, X 2 * X 2,
    X 0 * X 0 * X 0, X 0 * X 0 * X 1, X 0 * X 0 * X 2, X 0 * X 1 * X 1, X 0 * X 1 * X 2, X 0 * X 2 * X 2,
    X 1 * X 1 * X 1, X 1 * X 1 * X 2, X 1 * X 2 * X 2, X 2 * X 2 * X 2,
    Ideal.sin (X 0), Ideal.sin (X 1), Ideal.sin (X 2)]

/-- A sum over 23 indices written out, associated to the left: the order in which a term-by-term accumulation adds. -/
theorem sum23 (f : Fin 23 → EReal) :
    ∑ l : Fin 23, f l = f 0 + f 1 + f 2 + f 3 + f 4 + f 5 + f 6 + f 7 + f 8 + f 9 + f 10 + f 11 + f 12 + f 13 + f 14
      + f 15 + f 16 + f 17 + f 18 + f 19 + f 20 + f 21 + f 22 := by
  simp only [Fin.sum_univ_castSucc, Fin.sum_univ_zero, zero_add]
  rfl

/-- The contraction as a sum over the library IS the term-by-term accumulation: the sum written out is the left
    fold, and the constant term's product `1 * κ 0` is `κ 0`. -/
theorem sum_feat (X : Fin 3 → EReal) (κ : Fin 23 → EReal) : ∑ l : Fin 23, feat X l * κ l = rowOut X κ := by
  have h0 : feat X 0 * κ 0 = κ 0 := (congrArg (· * κ 0) (rfl : feat X 0 = 1)).trans (one_mul _)
  rw [sum23, h0]
  rfl

/-- The whole result as ONE function of the three argument arrays, index by index: at `(b, n, s)` the contraction of
    row `(b, n)` of `x` with column `s` of the entrywise product `mask * W`. -/
def G (x : (⟨3, ![64, 100000, 3]⟩ : Shape).Idx → EReal) (W mask : (⟨2, ![23, 3]⟩ : Shape).Idx → EReal) :
    (⟨3, ![64, 100000, 3]⟩ : Shape).Idx → EReal :=
  fun i => rowOut (fun j => x (ix3 (i 0) (i 1) j)) (fun l => mask (ix2 l (i 2)) * W (ix2 l (i 2)))

end Cert.Proof.Features
-- ==== Proof.KernelRow.lean ====
/-
  What one grid point's body leaves in the output block, entry by entry.

  The body loads the point's block of `x` (4000 rows of three entries, under a leading unit axis) and the whole
  23 × 3 coefficient block, and stores one block of the same shape as the `x` block. Every step between the loads and
  the store acts entry by entry or only re-lays values: a unit column of the `x` block is cut out and broadcast
  along the three channels, a unit row of the coefficients is cut out and broadcast down the 4000 rows, and
  products and sums are taken entrywise. So entry `(u, r, s)` of the stored block depends on row `r` of the `x`
  block and on column `s` of the coefficients only, and it is their term-by-term contraction `Features.rowOut`.
-/
import proofs.«162445_j8753143349705_1_alg».proof.Proof.Gen.KernelIdeal.Frame
import proofs.«162445_j8753143349705_1_alg».proof.Proof.Features
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.KernelIdeal.RowValue

open Cert.KernelIdeal Cert.KernelIdeal.Gen Cert.Proof

/-- An `[a, 1]` column broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sine of a vector, read at an index, is the extended reals' sine of the entry there. -/
theorem sin_apply {s : Shape} {φ : FTy} (a : FVec Ideal s φ) (i : s.Idx) : sin a i = Ideal.sin (a i) := rfl

/-- The offsets of a whole-block access, however many axes, are all zero. -/
theorem zero3 : (![0, 0, 0] : Fin 3 → Nat) = fun _ => 0 := funext fun a => by fin_cases a <;> rfl
theorem zero2 : (![0, 0] : Fin 2 → Nat) = fun _ => 0 := funext fun a => by fin_cases a <;> rfl

set_option maxHeartbeats 2000000 in
/-- ENTRY `(u, r, s)` OF THE STORED BLOCK is the contraction of row `r` of the loaded `x` block with column `s` of the
    loaded coefficient block, accumulated term by term. -/
theorem out_apply (x0 : Vec Ideal S1x4000x3 .f32) (x1 : Vec Ideal S23x3 .f32) (u : Fin 1) (r : Fin 4000) (s : Fin 3) :
    out0_2 (F := Ideal) x0 x1 (ix3 u r s)
      = Features.rowOut (fun j => x0 (ix3 (0 : Fin 1) r j)) (fun l => x1 (ix2 l s)) := by
  unfold out0_2
  rw [View.canon_unit_zero zero3]
  simp only [View.ld_unit_zero (S := S1x4000x3) zero3, View.ld_unit_zero (S := S23x3) zero2]
  simp only [k0_pay1, k0_pay2, k0_pay3, k0_pay4, k0_pay5, k0_pay6, k0_pay7, k0_pay8, k0_pay9, k0_pay10, k0_pay11, k0_pay12,
    shapeCast_ab_1ab_apply, addf_apply, mulf_apply, sin_apply, broadcastTo_a1_ab_apply, broadcastTo_1b_ab_apply,
    slice2_axis0_eq, slice2_axis1_eq, shapeCast_self, shapeCast_1ab_ab_apply]
  rfl

end Cert.KernelIdeal.RowValue
-- ==== Proof.KernelArray.lean ====
/-
  From what each grid point writes back to the whole output array.

  The grid has 64 × 25 points; point `t` has coordinates `(t / 25, t % 25)`, and its block of `x` and of the output is
  rows `[4000 · (t % 25), 4000 · (t % 25) + 4000)` of batch `t / 25`, all three channels, while the coefficient window
  hands every point the whole 23 × 3 array `mask * W`, which the one host operation before the region writes. By
  `KernelRow` entry `(u, r, s)` of the block a point writes back is the contraction of ITS row `r` with column `s`,
  that is `Features.G` at the array index the entry lands on: each point writes `G` restricted to its block. Every
  index `(b, n, s)` of the array lies in exactly the block of the point `b · 25 + n / 4000`, so the blocks cover the
  array and it ends holding `G`.
-/
import proofs.«162445_j8753143349705_1_alg».proof.Proof.Gen.KernelIdeal.Frame
import proofs.«162445_j8753143349705_1_alg».proof.Proof.KernelRow
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.Proof

variable (m : (ℓ : Loc nD τ sig) → Buf (Elt Ideal) ℓ) (ρ : Dev nD → PrngReg)

/-! ## The coefficient array when the region is entered -/

/-- The one host operation before the region leaves the entrywise product `mask * W` in the coefficient window's array. -/
theorem coeff_eq (c : Dev nD) :
    @Eq (FVec Ideal S23x3 .f32) (V m c main_v0)
      (mulf (m ((c : Thread nD τ).loc main_arg2) : FVec Ideal S23x3 .f32) (m ((c : Thread nD τ).loc main_arg1) : FVec Ideal S23x3 .f32)) := by
  dsimp only [V, hostOps0]
  after_results

/-! ## The block indices at a point -/

/-- A 32-bit word made from a small number reads back as that number. -/
theorem toNat_ofNat_small (n : Nat) (h : n < 4294967296) : (BitVec.ofNat 32 n).toNat = n := by
  rw [BitVec.toNat_ofNat]; exact Nat.mod_eq_of_lt h

/-- Point `t`'s coordinates: the batch `t / 25` and the row block `t % 25`. -/
theorem coord0 (t : Fin cfg0.N) : ((grid0.coords t) 0).val = t.val / 25 % 64 := rfl
theorem coord1 (t : Fin cfg0.N) : ((grid0.coords t) 1).val = t.val / 1 % 25 := rfl

/-- The output window's block index at point `t`: `(t / 25 % 64, t % 25, 0)`. -/
theorem index2 (t : Fin cfg0.N) :
    win0_2.index t (0 : Fin 3) = t.val / 25 % 64 ∧ win0_2.index t (1 : Fin 3) = t.val % 25 ∧ win0_2.index t (2 : Fin 3) = 0 := by
  refine ⟨?_, ?_, rfl⟩
  · show (BitVec.ofNat 32 ((grid0.coords t) 0).val).toNat = _
    rw [coord0, toNat_ofNat_small _ (by omega)]
  · show (BitVec.ofNat 32 ((grid0.coords t) 1).val).toNat = _
    rw [coord1, toNat_ofNat_small _ (by omega), Nat.div_one]

/-- The `x` window moves with the output window: the same block index at every point. -/
theorem index0 (t : Fin cfg0.N) :
    win0_0.index t (0 : Fin 3) = t.val / 25 % 64 ∧ win0_0.index t (1 : Fin 3) = t.val % 25 ∧ win0_0.index t (2 : Fin 3) = 0 := by
  refine ⟨?_, ?_, rfl⟩
  · show (BitVec.ofNat 32 ((grid0.coords t) 0).val).toNat = _
    rw [coord0, toNat_ofNat_small _ (by omega)]
  · show (BitVec.ofNat 32 ((grid0.coords t) 1).val).toNat = _
    rw [coord1, toNat_ofNat_small _ (by omega), Nat.div_one]

/-- The coefficient window stays at its one block. -/
theorem index1 (t : Fin cfg0.N) : win0_1.index t (0 : Fin 2) = 0 ∧ win0_1.index t (1 : Fin 2) = 0 := ⟨rfl, rfl⟩

/-! ## What a point writes back is `G` on its block -/

/-- WHAT POINT `t` WRITES BACK is block `t` of `Features.G` of the three argument arrays. -/
theorem flushed_eq (c : Dev nD) (t : Fin cfg0.N) :
    (dats m 0 c).flushed 2 t = ((cfg0.win 2).blk t).view.read (Elt Ideal)
      (Features.G (m ((c : Thread nD τ).loc main_arg0)) (m ((c : Thread nD τ).loc main_arg1)) (m ((c : Thread nD τ).loc main_arg2))) := by
  show (cfg0.win 2).cut (grid0.coords t) ((dats m 0 c).after 2 t) = _
  rw [after0_2]
  obtain ⟨a0, a1, a2⟩ := index2 t
  obtain ⟨b0, b1, b2⟩ := index0 t
  obtain ⟨c0, c1⟩ := index1 t
  funext j
  obtain ⟨u, r, s, rfl⟩ : ∃ (u : Fin 1) (r : Fin 4000) (s : Fin 3), j = ix3 u r s := ⟨j 0, j 1, j 2, eq_ix3 j⟩
  have hu : u.val = 0 := by omega
  show out0_2 (iblk m c 0 t) (iblk m c 1 t) (ix3 u r s)
    = Features.G (m ((c : Thread nD τ).loc main_arg0)) (m ((c : Thread nD τ).loc main_arg1)) (m ((c : Thread nD τ).loc main_arg2))
        (((cfg0.win 2).blk t).view.emb (ix3 u r s))
  refine (RowValue.out_apply (iblk m c 0 t) (iblk m c 1 t) u r s).trans ?_
  unfold Features.G
  refine congrArg₂ Features.rowOut (funext fun jj => ?_) (funext fun l => ?_)
  · -- row `r` of the point's `x` block is row `(t / 25, 4000 · (t % 25) + r)` of `x`
    show V m c main_arg0 (((cfg0.win 0).blk t).view.emb (ix3 (0 : Fin 1) r jj)) = _
    rw [V_main_arg0]
    refine congrArg _ (funext fun a => Fin.ext ?_)
    match a with
    | ⟨0, _⟩ =>
      show win0_0.index t (0 : Fin 3) * 1 + 1 * (0 : Fin 1).val = win0_2.index t (0 : Fin 3) * 1 + 1 * u.val
      rw [a0, b0, hu]; rfl
    | ⟨1, _⟩ =>
      show win0_0.index t (1 : Fin 3) * 4000 + 1 * r.val = win0_2.index t (1 : Fin 3) * 4000 + 1 * r.val
      rw [a1, b1]
    | ⟨2, _⟩ =>
      show win0_0.index t (2 : Fin 3) * 3 + 1 * jj.val = jj.val
      rw [b2]; omega
  · -- the coefficient block is the whole array `mask * W`, and column `s` of it is column `s`
    show V m c main_v0 (((cfg0.win 1).blk t).view.emb (ix2 l s)) = _
    rw [coeff_eq]
    have e : ((cfg0.win 1).blk t).view.emb (ix2 l s) = ix2 l ((((cfg0.win 2).blk t).view.emb (ix3 u r s)) 2) := by
      refine funext fun a => Fin.ext ?_
      match a with
      | ⟨0, _⟩ =>
        show win0_1.index t (0 : Fin 2) * 23 + 1 * l.val = l.val
        rw [c0]; omega
      | ⟨1, _⟩ =>
        show win0_1.index t (1 : Fin 2) * 3 + 1 * s.val = win0_2.index t (2 : Fin 3) * 3 + 1 * s.val
        rw [c1, a2]
    rw [e]
    rfl

/-! ## The blocks cover the array -/

/-- An index of the array is in point `t`'s block iff each coordinate is in the block's range on its axis. -/
theorem mem_blk (t : Fin cfg0.N) (i : S64x100000x3.Idx) :
    i ∈ ((cfg0.win 2).blk t).view.set ↔ ∀ a : Fin 3, win0_2.index t a * S1x4000x3.size a ≤ (i a).val
      ∧ (i a).val < win0_2.index t a * S1x4000x3.size a + S1x4000x3.size a := by
  show i ∈ ((View.whole main_v1).slice (win0_2.rect t)).set ↔ _
  rw [View.set_slice_whole, Rect.mem_set_unit]
  exact Iff.rfl

/-- Every index `(b, n, s)` lies in the block of the point `b · 25 + n / 4000`, and every point writes its block back. -/
theorem cover (i : S64x100000x3.Idx) :
    ∃ t : Fin cfg0.N, (cfg0.win 2).flush t = true ∧ i ∈ ((cfg0.win 2).blk t).view.set := by
  have h0 : (i 0).val < 64 := (i 0).isLt
  have h1 : (i 1).val < 100000 := (i 1).isLt
  have h2 : (i 2).val < 3 := (i 2).isLt
  have hN : cfg0.N = 1600 := N_0
  have hlt : (i 0).val * 25 + (i 1).val / 4000 < cfg0.N := by rw [hN]; omega
  obtain ⟨e0, e1, e2⟩ := index2 ⟨(i 0).val * 25 + (i 1).val / 4000, hlt⟩
  have e0' : win0_2.index ⟨(i 0).val * 25 + (i 1).val / 4000, hlt⟩ (0 : Fin 3) = ((i 0).val * 25 + (i 1).val / 4000) / 25 % 64 := e0
  have e1' : win0_2.index ⟨(i 0).val * 25 + (i 1).val / 4000, hlt⟩ (1 : Fin 3) = ((i 0).val * 25 + (i 1).val / 4000) % 25 := e1
  refine ⟨⟨(i 0).val * 25 + (i 1).val / 4000, hlt⟩, flush0_2 _, ?_⟩
  rw [mem_blk]
  intro a
  match a with
  | ⟨0, _⟩ =>
    show win0_2.index ⟨(i 0).val * 25 + (i 1).val / 4000, hlt⟩ (0 : Fin 3) * 1 ≤ (i 0).val
      ∧ (i 0).val < win0_2.index ⟨(i 0).val * 25 + (i 1).val / 4000, hlt⟩ (0 : Fin 3) * 1 + 1
    rw [e0']; omega
  | ⟨1, _⟩ =>
    show win0_2.index ⟨(i 0).val * 25 + (i 1).val / 4000, hlt⟩ (1 : Fin 3) * 4000 ≤ (i 1).val
      ∧ (i 1).val < win0_2.index ⟨(i 0).val * 25 + (i 1).val / 4000, hlt⟩ (1 : Fin 3) * 4000 + 4000
    rw [e1']; omega
  | ⟨2, _⟩ =>
    show win0_2.index ⟨(i 0).val * 25 + (i 1).val / 4000, hlt⟩ (2 : Fin 3) * 3 ≤ (i 2).val
      ∧ (i 2).val < win0_2.index ⟨(i 0).val * 25 + (i 1).val / 4000, hlt⟩ (2 : Fin 3) * 3 + 3
    rw [e2]; omega

/-- THE OUTPUT ARRAY after the run is `Features.G` of the three argument arrays. -/
theorem final (c : Dev nD) : (dats m 0 c).arrAt 2 cfg0.N
    = Features.G (m ((c : Thread nD τ).loc main_arg0)) (m ((c : Thread nD τ).loc main_arg1)) (m ((c : Thread nD τ).loc main_arg2)) :=
  (dats m 0 c).arrAt_eq_of_cover 2 _ (fun t _ => flushed_eq m c t) cover

/-! ## The run, read -/

/-- THE KERNEL'S RUN, READ: every weakly fair execution terminates with the output array at `Features.G` of the launch
    contents of the three arguments, and the arguments unchanged. -/
theorem run : θ_run defs (onTc (τ := τ) (main (F := Ideal))) ⟨m, fun _ => 0, ρ⟩ fun r => ∀ c : Dev nD,
      r.2.mem ((c : Thread nD τ).loc main_v1)
          = Features.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.ArrayValue
-- ==== Proof.RefLine.lean ====
/-
  The reference program as a straight line of host operations, cut into the three stretches it is printed in.

  The program has no kernel: it is 145 host operations in a row, each writing one fresh buffer from buffers written
  before it. It builds the 23-column library of a row — the constant column, the three channels, the six products of
  two channels, the ten products of three, the three sines —, joins the columns, forms the coefficient product
  `mask * W`, and contracts the two. A straight line's run is determined operation by operation: every weakly fair
  execution ends with each buffer holding the fold of the operations' results over the launch contents. Run as one
  line of 145 the bookkeeping is quadratic in the length, so it is stated per stretch — stretch `k` is window `k` of
  the printed program — and the three are joined: two lines run one after the other are their concatenation run as
  one, and the contents after a concatenation are the second line's after the first's.
-/
import proofs.«162445_j8753143349705_1_alg».proof.Proof.Gen.ReferenceIdeal
import Idealize.ShloMosaic.Lib.StableHlo.Run
import Idealize.ShloMosaic.Lib.Pipeline.Frame

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The first stretch: the constant column, the three channels, the six products of two channels, and the first
    products of three up to the slice that opens `x0 * x0 * x2`. -/
abbrev ops0 : List (HloOp τ sig (Elt F)) :=
  [ nullary main_cst (constant S_ .f32 0x3F800000#32),
    unary main_cst main_v0 (broadcastInDim S64x100000 ![] bcast_S_S64x100000 : (⟨S_, .f32⟩ : BufTy).Contents (Elt F) → (⟨S64x100000, .f32⟩ : BufTy).Contents (Elt F)),
    unary main_arg0 main_v1 ((extractStridedSlice S64x100000x1 ![0, 0, 0] · slices_S64x100000x3_S64x100000x1_0_0_0) : (⟨S64x100000x3, .f32⟩ : BufTy).Contents (Elt F) → (⟨S64x100000x1, .f32⟩ : BufTy).Contents (Elt F)),
    reshape main_v1 main_v2 rfl shapeCasts_S64x100000x1_S64x100000,
    unary main_arg0 main_v3 ((extractStridedSlice S64x100000x1 ![0, 0, 1] · slices_S64x100000x3_S64x100000x1_0_0_1) : (⟨S64x100000x3, .f32⟩ : BufTy).Contents (Elt F) → (⟨S64x100000x1, .f32⟩ : BufTy).Contents (Elt F)),
    reshape main_v3 main_v4 rfl shapeCasts_S64x100000x1_S64x100000,
    unary main_arg0 main_v5 ((extractStridedSlice S64x100000x1 ![0, 0, 2] · slices_S64x100000x3_S64x100000x1_0_0_2) : (⟨S64x100000x3, .f32⟩ : BufTy).Contents (Elt F) → (⟨S64x100000x1, .f32⟩ : BufTy).Contents (Elt F)),
    reshape main_v5 main_v6 rfl shapeCasts_S64x100000x1_S64x100000,
    unary main_arg0 main_v7 ((extractStridedSlice S64x100000x1 ![0, 0, 0] · slices_S64x100000x3_S64x100000x1_0_0_0) : (⟨S64x100000x3, .f32⟩ : BufTy).Contents (Elt F) → (⟨S64x100000x1, .f32⟩ : BufTy).Contents (Elt F)),
    reshape main_v7 main_v8 rfl shapeCasts_S64x100000x1_S64x100000,
    unary main_arg0 main_v9 ((extractStridedSlice S64x100000x1 ![0, 0, 0] · slices_S64x100000x3_S64x100000x1_0_0_0) : (⟨S64x100000x3, .f32⟩ : BufTy).Contents (Elt F) → (⟨S64x100000x1, .f32⟩ : BufTy).Contents (Elt F)),
    reshape main_v9 main_v10 rfl shapeCasts_S64x100000x1_S64x100000,
    binary main_v8 main_v10 main_v11 (mulf : (⟨S64x100000, .f32⟩ : BufTy).Contents (Elt F) → (⟨S64x100000, .f32⟩ : BufTy).Contents (Elt F) → (⟨S64x100000, .f32⟩ : BufTy).Contents (Elt F)),
    unary main_arg0 main_v12 ((extractStridedSlice S64x100000x1 ![0, 0, 0] · slices_S64x100000x3_S64x100000x1_0_0_0) : (⟨S64x100000x3, .f32⟩ : BufTy).Contents (Elt F) → (⟨S64x100000x1, .f32⟩ : BufTy).Contents (Elt F)),
    reshape main_v12 main_v13 rfl shapeCasts_S64x100000x1_S64x100000,
    unary main_arg0 main_v14 ((extractStridedSlice S64x100000x1 ![0, 0, 1] · slices_S64x100000x3_S64x100000x1_0_0_1) : (⟨S64x100000x3, .f32⟩ : BufTy).Contents (Elt F) → (⟨S64x100000x1, .f32⟩ : BufTy).Contents (Elt F)),
    reshape main_v14 main_v15 rfl shapeCasts_S64x100000x1_S64x100000,
    binary main_v13 main_v15 main_v16 (mulf : (⟨S64x100000, .f32⟩ : BufTy).Contents (Elt F) → (⟨S64x100000, .f32⟩ : BufTy).Contents (Elt F) → (⟨S64x100000, .f32⟩ : BufTy).Contents (Elt F)),
    unary main_arg0 main_v17 ((extractStridedSlice S64x100000x1 ![0, 0, 0] · slices_S64x100000x3_S64x100000x1_0_0_0) : (⟨S64x100000x3, .f32⟩ : BufTy).Contents (Elt F) → (⟨S64x100000x1, .f32⟩ : BufTy).Contents (Elt F)),
    reshape main_v17 main_v18 rfl shapeCasts_S64x100000x1_S64x100000,
    unary main_arg0 main_v19 ((extractStridedSlice S64x100000x1 ![0, 0, 2] · slices_S64x100000x3_S64x100000x1_0_0_2) : (⟨S64x100000x3, .f32⟩ : BufTy).Contents (Elt F) → (⟨S64x100000x1, .f32⟩ : BufTy).Contents (Elt F)),
    reshape main_v19 main_v20 rfl shapeCasts_S64x100000x1_S64x100000,
    binary main_v18 main_v20 main_v21 (mulf : (⟨S64x100000, .f32⟩ : BufTy).Contents (Elt F) → (⟨S64x100000, .f32⟩ : BufTy).Contents (Elt F) → (⟨S64x100000, .f32⟩ : BufTy).Contents (Elt F)),
    unary main_arg0 main_v22 ((extractStridedSlice S64x100000x1 ![0, 0, 1] · slices_S64x100000x3_S64x100000x1_0_0_1) : (⟨S64x100000x3, .f32⟩ : BufTy).Contents (Elt F) → (⟨S64x100000x1, .f32⟩ : BufTy).Contents (Elt F)),
    reshape main_v22 main_v23 rfl shapeCasts_S64x100000x1_S64x100000,
    unary main_arg0 main_v24 ((extractStridedSlice S64x100000x1 ![0, 0, 1] · slices_S64x100000x3_S64x100000x1_0_0_1) : (⟨S64x100000x3, .f32⟩ : BufTy).Contents (Elt F) → (⟨S64x100000x1, .f32⟩ : BufTy).Contents (Elt F)),
    reshape main_v24 main_v25 rfl shapeCasts_S64x100000x1_S64x100000,
    binary main_v23 main_v25 main_v26 (mulf : (⟨S64x100000, .f32⟩ : BufTy).Contents (Elt F) → (⟨S64x100000, .f32⟩ : BufTy).Contents (Elt F) → (⟨S64x100000, .f32⟩ : BufTy).Contents (Elt F)),
    unary main_arg0 main_v27 ((extractStridedSlice S64x100000x1 ![0, 0, 1] · slices_S64x100000x3_S64x100000x1_0_0_1) : (⟨S64x100000x3, .f32⟩ : BufTy).Contents (Elt F) → (⟨S64x100000x1, .f32⟩ : BufTy).Contents (Elt F)),
    reshape main_v27 main_v28 rfl shapeCasts_S64x100000x1_S64x100000,
    unary main_arg0 main_v29 ((extractStridedSlice S64x100000x1 ![0, 0, 2] · slices_S64x100000x3_S64x100000x1_0_0_2) : (⟨S64x100000x3, .f32⟩ : BufTy).Contents (Elt F) → (⟨S64x100000x1, .f32⟩ : BufTy).Contents (Elt F)),
    reshape main_v29 main_v30 rfl shapeCasts_S64x100000x1_S64x100000,
    binary main_v28 main_v30 main_v31 (mulf : (⟨S64x100000, .f32⟩ : BufTy).Contents (Elt F) → (⟨S64x100000, .f32⟩ : BufTy).Contents (Elt F) → (⟨S64x100000, .f32⟩ : BufTy).Contents (Elt F)),
    unary main_arg0 main_v32 ((extractStridedSlice S64x100000x1 ![0, 0, 2] · slices_S64x100000x3_S64x100000x1_0_0_2) : (⟨S64x100000x3, .f32⟩ : BufTy).Contents (Elt F) → (⟨S64x100000x1, .f32⟩ : BufTy).Contents (Elt F)),
    reshape main_v32 main_v33 rfl shapeCasts_S64x100000x1_S64x100000,
    unary main_arg0 main_v34 ((extractStridedSlice S64x100000x1 ![0, 0, 2] · slices_S64x100000x3_S64x100000x1_0_0_2) : (⟨S64x100000x3, .f32⟩ : BufTy).Contents (Elt F) → (⟨S64x100000x1, .f32⟩ : BufTy).Contents (Elt F)),
    reshape main_v34 main_v35 rfl shapeCasts_S64x100000x1_S64x100000,
    binary main_v33 main_v35 main_v36 (mulf : (⟨S64x100000, .f32⟩ : BufTy).Contents (Elt F) → (⟨S64x100000, .f32⟩ : BufTy).Contents (Elt F) → (⟨S64x100000, .f32⟩ : BufTy).Contents (Elt F)),
    unary main_arg0 main_v37 ((extractStridedSlice S64x100000x1 ![0, 0, 0] · slices_S64x100000x3_S64x100000x1_0_0_0) : (⟨S64x100000x3, .f32⟩ : BufTy).Contents (Elt F) → (⟨S64x100000x1, .f32⟩ : BufTy).Contents (Elt F)),
    reshape main_v37 main_v38 rfl shapeCasts_S64x100000x1_S64x100000,
    unary main_arg0 main_v39 ((extractStridedSlice S64x100000x1 ![0, 0, 0] · slices_S64x100000x3_S64x100000x1_0_0_0) : (⟨S64x100000x3, .f32⟩ : BufTy).Contents (Elt F) → (⟨S64x100000x1, .f32⟩ : BufTy).Contents (Elt F)),
    reshape main_v39 main_v40 rfl shapeCasts_S64x100000x1_S64x100000,
    binary main_v38 main_v40 main_v41 (mulf : (⟨S64x100000, .f32⟩ : BufTy).Contents (Elt F) → (⟨S64x100000, .f32⟩ : BufTy).Contents (Elt F) → (⟨S64x100000, .f32⟩ : BufTy).Contents (Elt F)),
    unary main_arg0 main_v42 ((extractStridedSlice S64x100000x1 ![0, 0, 0] · slices_S64x100000x3_S64x100000x1_0_0_0) : (⟨S64x100000x3, .f32⟩ : BufTy).Contents (Elt F) → (⟨S64x100000x1, .f32⟩ : BufTy).Contents (Elt F)),
    reshape main_v42 main_v43 rfl shapeCasts_S64x100000x1_S64x100000,
    binary main_v41 main_v43 main_v44 (mulf : (⟨S64x100000, .f32⟩ : BufTy).Contents (Elt F) → (⟨S64x100000, .f32⟩ : BufTy).Contents (Elt F) → (⟨S64x100000, .f32⟩ : BufTy).Contents (Elt F)),
    unary main_arg0 main_v45 ((extractStridedSlice S64x100000x1 ![0, 0, 0] · slices_S64x100000x3_S64x100000x1_0_0_0) : (⟨S64x100000x3, .f32⟩ : BufTy).Contents (Elt F) → (⟨S64x100000x1, .f32⟩ : BufTy).Contents (Elt F)),
    reshape main_v45 main_v46 rfl shapeCasts_S64x100000x1_S64x100000,
    unary main_arg0 main_v47 ((extractStridedSlice S64x100000x1 ![0, 0, 0] · slices_S64x100000x3_S64x100000x1_0_0_0) : (⟨S64x100000x3, .f32⟩ : BufTy).Contents (Elt F) → (⟨S64x100000x1, .f32⟩ : BufTy).Contents (Elt F)),
    reshape main_v47 main_v48 rfl shapeCasts_S64x100000x1_S64x100000,
    binary main_v46 main_v48 main_v49 (mulf : (⟨S64x100000, .f32⟩ : BufTy).Contents (Elt F) → (⟨S64x100000, .f32⟩ : BufTy).Contents (Elt F) → (⟨S64x100000, .f32⟩ : BufTy).Contents (Elt F)),
    unary main_arg0 main_v50 ((extractStridedSlice S64x100000x1 ![0, 0, 1] · slices_S64x100000x3_S64x100000x1_0_0_1) : (⟨S64x100000x3, .f32⟩ : BufTy).Contents (Elt F) → (⟨S64x100000x1, .f32⟩ : BufTy).Contents (Elt F)),
    reshape main_v50 main_v51 rfl shapeCasts_S64x100000x1_S64x100000,
    binary main_v49 main_v51 main_v52 (mulf : (⟨S64x100000, .f32⟩ : BufTy).Contents (Elt F) → (⟨S64x100000, .f32⟩ : BufTy).Contents (Elt F) → (⟨S64x100000, .f32⟩ : BufTy).Contents (Elt F)),
    unary main_arg0 main_v53 ((extractStridedSlice S64x100000x1 ![0, 0, 0] · slices_S64x100000x3_S64x100000x1_0_0_0) : (⟨S64x100000x3, .f32⟩ : BufTy).Contents (Elt F) → (⟨S64x100000x1, .f32⟩ : BufTy).Contents (Elt F)),
    reshape main_v53 main_v54 rfl shapeCasts_S64x100000x1_S64x100000,
    unary main_arg0 main_v55 ((extractStridedSlice S64x100000x1 ![0, 0, 0] · slices_S64x100000x3_S64x100000x1_0_0_0) : (⟨S64x100000x3, .f32⟩ : BufTy).Contents (Elt F) → (⟨S64x100000x1, .f32⟩ : BufTy).Contents (Elt F)),
    reshape main_v55 main_v56 rfl shapeCasts_S64x100000x1_S64x100000,
    binary main_v54 main_v56 main_v57 (mulf : (⟨S64x100000, .f32⟩ : BufTy).Contents (Elt F) → (⟨S64x100000, .f32⟩ : BufTy).Contents (Elt F) → (⟨S64x100000, .f32⟩ : BufTy).Contents (Elt F)),
    unary main_arg0 main_v58 ((extractStridedSlice S64x100000x1 ![0, 0, 2] · slices_S64x100000x3_S64x100000x1_0_0_2) : (⟨S64x100000x3, .f32⟩ : BufTy).Contents (Elt F) → (⟨S64x100000x1, .f32⟩ : BufTy).Contents (Elt F)) ]

/-- The second stretch: the remaining products of three channels, and the first two columns given their unit axis. -/
abbrev ops1 : List (HloOp τ sig (Elt F)) :=
  [ reshape main_v58 main_v59 rfl shapeCasts_S64x100000x1_S64x100000,
    binary main_v57 main_v59 main_v60 (mulf : (⟨S64x100000, .f32⟩ : BufTy).Contents (Elt F) → (⟨S64x100000, .f32⟩ : BufTy).Contents (Elt F) → (⟨S64x100000, .f32⟩ : BufTy).Contents (Elt F)),
    unary main_arg0 main_v61 ((extractStridedSlice S64x100000x1 ![0, 0, 0] · slices_S64x100000x3_S64x100000x1_0_0_0) : (⟨S64x100000x3, .f32⟩ : BufTy).Contents (Elt F) → (⟨S64x100000x1, .f32⟩ : BufTy).Contents (Elt F)),
    reshape main_v61 main_v62 rfl shapeCasts_S64x100000x1_S64x100000,
    unary main_arg0 main_v63 ((extractStridedSlice S64x100000x1 ![0, 0, 1] · slices_S64x100000x3_S64x100000x1_0_0_1) : (⟨S64x100000x3, .f32⟩ : BufTy).Contents (Elt F) → (⟨S64x100000x1, .f32⟩ : BufTy).Contents (Elt F)),
    reshape main_v63 main_v64 rfl shapeCasts_S64x100000x1_S64x100000,
    binary main_v62 main_v64 main_v65 (mulf : (⟨S64x100000, .f32⟩ : BufTy).Contents (Elt F) → (⟨S64x100000, .f32⟩ : BufTy).Contents (Elt F) → (⟨S64x100000, .f32⟩ : BufTy).Contents (Elt F)),
    unary main_arg0 main_v66 ((extractStridedSlice S64x100000x1 ![0, 0, 1] · slices_S64x100000x3_S64x100000x1_0_0_1) : (⟨S64x100000x3, .f32⟩ : BufTy).Contents (Elt F) → (⟨S64x100000x1, .f32⟩ : BufTy).Contents (Elt F)),
    reshape main_v66 main_v67 rfl shapeCasts_S64x100000x1_S64x100000,
    binary main_v65 main_v67 main_v68 (mulf : (⟨S64x100000, .f32⟩ : BufTy).Contents (Elt F) → (⟨S64x100000, .f32⟩ : BufTy).Contents (Elt F) → (⟨S64x100000, .f32⟩ : BufTy).Contents (Elt F)),
    unary main_arg0 main_v69 ((extractStridedSlice S64x100000x1 ![0, 0, 0] · slices_S64x100000x3_S64x100000x1_0_0_0) : (⟨S64x100000x3, .f32⟩ : BufTy).Contents (Elt F) → (⟨S64x100000x1, .f32⟩ : BufTy).Contents (Elt F)),
    reshape main_v69 main_v70 rfl shapeCasts_S64x100000x1_S64x100000,
    unary main_arg0 main_v71 ((extractStridedSlice S64x100000x1 ![0, 0, 1] · slices_S64x100000x3_S64x100000x1_0_0_1) : (⟨S64x100000x3, .f32⟩ : BufTy).Contents (Elt F) → (⟨S64x100000x1, .f32⟩ : BufTy).Contents (Elt F)),
    reshape main_v71 main_v72 rfl shapeCasts_S64x100000x1_S64x100000,
    binary main_v70 main_v72 main_v73 (mulf : (⟨S64x100000, .f32⟩ : BufTy).Contents (Elt F) → (⟨S64x100000, .f32⟩ : BufTy).Contents (Elt F) → (⟨S64x100000, .f32⟩ : BufTy).Contents (Elt F)),
    unary main_arg0 main_v74 ((extractStridedSlice S64x100000x1 ![0, 0, 2] · slices_S64x100000x3_S64x100000x1_0_0_2) : (⟨S64x100000x3, .f32⟩ : BufTy).Contents (Elt F) → (⟨S64x100000x1, .f32⟩ : BufTy).Contents (Elt F)),
    reshape main_v74 main_v75 rfl shapeCasts_S64x100000x1_S64x100000,
    binary main_v73 main_v75 main_v76 (mulf : (⟨S64x100000, .f32⟩ : BufTy).Contents (Elt F) → (⟨S64x100000, .f32⟩ : BufTy).Contents (Elt F) → (⟨S64x100000, .f32⟩ : BufTy).Contents (Elt F)),
    unary main_arg0 main_v77 ((extractStridedSlice S64x100000x1 ![0, 0, 0] · slices_S64x100000x3_S64x100000x1_0_0_0) : (⟨S64x100000x3, .f32⟩ : BufTy).Contents (Elt F) → (⟨S64x100000x1, .f32⟩ : BufTy).Contents (Elt F)),
    reshape main_v77 main_v78 rfl shapeCasts_S64x100000x1_S64x100000,
    unary main_arg0 main_v79 ((extractStridedSlice S64x100000x1 ![0, 0, 2] · slices_S64x100000x3_S64x100000x1_0_0_2) : (⟨S64x100000x3, .f32⟩ : BufTy).Contents (Elt F) → (⟨S64x100000x1, .f32⟩ : BufTy).Contents (Elt F)),
    reshape main_v79 main_v80 rfl shapeCasts_S64x100000x1_S64x100000,
    binary main_v78 main_v80 main_v81 (mulf : (⟨S64x100000, .f32⟩ : BufTy).Contents (Elt F) → (⟨S64x100000, .f32⟩ : BufTy).Contents (Elt F) → (⟨S64x100000, .f32⟩ : BufTy).Contents (Elt F)),
    unary main_arg0 main_v82 ((extractStridedSlice S64x100000x1 ![0, 0, 2] · slices_S64x100000x3_S64x100000x1_0_0_2) : (⟨S64x100000x3, .f32⟩ : BufTy).Contents (Elt F) → (⟨S64x100000x1, .f32⟩ : BufTy).Contents (Elt F)),
    reshape main_v82 main_v83 rfl shapeCasts_S64x100000x1_S64x100000,
    binary main_v81 main_v83 main_v84 (mulf : (⟨S64x100000, .f32⟩ : BufTy).Contents (Elt F) → (⟨S64x100000, .f32⟩ : BufTy).Contents (Elt F) → (⟨S64x100000, .f32⟩ : BufTy).Contents (Elt F)),
    unary main_arg0 main_v85 ((extractStridedSlice S64x100000x1 ![0, 0, 1] · slices_S64x100000x3_S64x100000x1_0_0_1) : (⟨S64x100000x3, .f32⟩ : BufTy).Contents (Elt F) → (⟨S64x100000x1, .f32⟩ : BufTy).Contents (Elt F)),
    reshape main_v85 main_v86 rfl shapeCasts_S64x100000x1_S64x100000,
    unary main_arg0 main_v87 ((extractStridedSlice S64x100000x1 ![0, 0, 1] · slices_S64x100000x3_S64x100000x1_0_0_1) : (⟨S64x100000x3, .f32⟩ : BufTy).Contents (Elt F) → (⟨S64x100000x1, .f32⟩ : BufTy).Contents (Elt F)),
    reshape main_v87 main_v88 rfl shapeCasts_S64x100000x1_S64x100000,
    binary main_v86 main_v88 main_v89 (mulf : (⟨S64x100000, .f32⟩ : BufTy).Contents (Elt F) → (⟨S64x100000, .f32⟩ : BufTy).Contents (Elt F) → (⟨S64x100000, .f32⟩ : BufTy).Contents (Elt F)),
    unary main_arg0 main_v90 ((extractStridedSlice S64x100000x1 ![0, 0, 1] · slices_S64x100000x3_S64x100000x1_0_0_1) : (⟨S64x100000x3, .f32⟩ : BufTy).Contents (Elt F) → (⟨S64x100000x1, .f32⟩ : BufTy).Contents (Elt F)),
    reshape main_v90 main_v91 rfl shapeCasts_S64x100000x1_S64x100000,
    binary main_v89 main_v91 main_v92 (mulf : (⟨S64x100000, .f32⟩ : BufTy).Contents (Elt F) → (⟨S64x100000, .f32⟩ : BufTy).Contents (Elt F) → (⟨S64x100000, .f32⟩ : BufTy).Contents (Elt F)),
    unary main_arg0 main_v93 ((extractStridedSlice S64x100000x1 ![0, 0, 1] · slices_S64x100000x3_S64x100000x1_0_0_1) : (⟨S64x100000x3, .f32⟩ : BufTy).Contents (Elt F) → (⟨S64x100000x1, .f32⟩ : BufTy).Contents (Elt F)),
    reshape main_v93 main_v94 rfl shapeCasts_S64x100000x1_S64x100000,
    unary main_arg0 main_v95 ((extractStridedSlice S64x100000x1 ![0, 0, 1] · slices_S64x100000x3_S64x100000x1_0_0_1) : (⟨S64x100000x3, .f32⟩ : BufTy).Contents (Elt F) → (⟨S64x100000x1, .f32⟩ : BufTy).Contents (Elt F)),
    reshape main_v95 main_v96 rfl shapeCasts_S64x100000x1_S64x100000,
    binary main_v94 main_v96 main_v97 (mulf : (⟨S64x100000, .f32⟩ : BufTy).Contents (Elt F) → (⟨S64x100000, .f32⟩ : BufTy).Contents (Elt F) → (⟨S64x100000, .f32⟩ : BufTy).Contents (Elt F)),
    unary main_arg0 main_v98 ((extractStridedSlice S64x100000x1 ![0, 0, 2] · slices_S64x100000x3_S64x100000x1_0_0_2) : (⟨S64x100000x3, .f32⟩ : BufTy).Contents (Elt F) → (⟨S64x100000x1, .f32⟩ : BufTy).Contents (Elt F)),
    reshape main_v98 main_v99 rfl shapeCasts_S64x100000x1_S64x100000,
    binary main_v97 main_v99 main_v100 (mulf : (⟨S64x100000, .f32⟩ : BufTy).Contents (Elt F) → (⟨S64x100000, .f32⟩ : BufTy).Contents (Elt F) → (⟨S64x100000, .f32⟩ : BufTy).Contents (Elt F)),
    unary main_arg0 main_v101 ((extractStridedSlice S64x100000x1 ![0, 0, 1] · slices_S64x100000x3_S64x100000x1_0_0_1) : (⟨S64x100000x3, .f32⟩ : BufTy).Contents (Elt F) → (⟨S64x100000x1, .f32⟩ : BufTy).Contents (Elt F)),
    reshape main_v101 main_v102 rfl shapeCasts_S64x100000x1_S64x100000,
    unary main_arg0 main_v103 ((extractStridedSlice S64x100000x1 ![0, 0, 2] · slices_S64x100000x3_S64x100000x1_0_0_2) : (⟨S64x100000x3, .f32⟩ : BufTy).Contents (Elt F) → (⟨S64x100000x1, .f32⟩ : BufTy).Contents (Elt F)),
    reshape main_v103 main_v104 rfl shapeCasts_S64x100000x1_S64x100000,
    binary main_v102 main_v104 main_v105 (mulf : (⟨S64x100000, .f32⟩ : BufTy).Contents (Elt F) → (⟨S64x100000, .f32⟩ : BufTy).Contents (Elt F) → (⟨S64x100000, .f32⟩ : BufTy).Contents (Elt F)),
    unary main_arg0 main_v106 ((extractStridedSlice S64x100000x1 ![0, 0, 2] · slices_S64x100000x3_S64x100000x1_0_0_2) : (⟨S64x100000x3, .f32⟩ : BufTy).Contents (Elt F) → (⟨S64x100000x1, .f32⟩ : BufTy).Contents (Elt F)),
    reshape main_v106 main_v107 rfl shapeCasts_S64x100000x1_S64x100000,
    binary main_v105 main_v107 main_v108 (mulf : (⟨S64x100000, .f32⟩ : BufTy).Contents (Elt F) → (⟨S64x100000, .f32⟩ : BufTy).Contents (Elt F) → (⟨S64x100000, .f32⟩ : BufTy).Contents (Elt F)),
    unary main_arg0 main_v109 ((extractStridedSlice S64x100000x1 ![0, 0, 2] · slices_S64x100000x3_S64x100000x1_0_0_2) : (⟨S64x100000x3, .f32⟩ : BufTy).Contents (Elt F) → (⟨S64x100000x1, .f32⟩ : BufTy).Contents (Elt F)),
    reshape main_v109 main_v110 rfl shapeCasts_S64x100000x1_S64x100000,
    unary main_arg0 main_v111 ((extractStridedSlice S64x100000x1 ![0, 0, 2] · slices_S64x100000x3_S64x100000x1_0_0_2) : (⟨S64x100000x3, .f32⟩ : BufTy).Contents (Elt F) → (⟨S64x100000x1, .f32⟩ : BufTy).Contents (Elt F)),
    reshape main_v111 main_v112 rfl shapeCasts_S64x100000x1_S64x100000,
    binary main_v110 main_v112 main_v113 (mulf : (⟨S64x100000, .f32⟩ : BufTy).Contents (Elt F) → (⟨S64x100000, .f32⟩ : BufTy).Contents (Elt F) → (⟨S64x100000, .f32⟩ : BufTy).Contents (Elt F)),
    unary main_arg0 main_v114 ((extractStridedSlice S64x100000x1 ![0, 0, 2] · slices_S64x100000x3_S64x100000x1_0_0_2) : (⟨S64x100000x3, .f32⟩ : BufTy).Contents (Elt F) → (⟨S64x100000x1, .f32⟩ : BufTy).Contents (Elt F)),
    reshape main_v114 main_v115 rfl shapeCasts_S64x100000x1_S64x100000,
    binary main_v113 main_v115 main_v116 (mulf : (⟨S64x100000, .f32⟩ : BufTy).Contents (Elt F) → (⟨S64x100000, .f32⟩ : BufTy).Contents (Elt F) → (⟨S64x100000, .f32⟩ : BufTy).Contents (Elt F)),
    unary main_v0 main_v117 (broadcastInDim S64x100000x1 ![0, 1] bcast_S64x100000_S64x100000x1_0_1 : (⟨S64x100000, .f32⟩ : BufTy).Contents (Elt F) → (⟨S64x100000x1, .f32⟩ : BufTy).Contents (Elt F)),
    unary main_v2 main_v118 (broadcastInDim S64x100000x1 ![0, 1] bcast_S64x100000_S64x100000x1_0_1 : (⟨S64x100000, .f32⟩ : BufTy).Contents (Elt F) → (⟨S64x100000x1, .f32⟩ : BufTy).Contents (Elt F)) ]

/-- The third stretch: the other columns given their unit axis, the columns joined, the sines joined after them, the
    coefficient product, and the contraction. -/
abbrev ops2 : List (HloOp τ sig (Elt F)) :=
  [ unary main_v4 main_v119 (broadcastInDim S64x100000x1 ![0, 1] bcast_S64x100000_S64x100000x1_0_1 : (⟨S64x100000, .f32⟩ : BufTy).Contents (Elt F) → (⟨S64x100000x1, .f32⟩ : BufTy).Contents (Elt F)),
    unary main_v6 main_v120 (broadcastInDim S64x100000x1 ![0, 1] bcast_S64x100000_S64x100000x1_0_1 : (⟨S64x100000, .f32⟩ : BufTy).Contents (Elt F) → (⟨S64x100000x1, .f32⟩ : BufTy).Contents (Elt F)),
    unary main_v11 main_v121 (broadcastInDim S64x100000x1 ![0, 1] bcast_S64x100000_S64x100000x1_0_1 : (⟨S64x100000, .f32⟩ : BufTy).Contents (Elt F) → (⟨S64x100000x1, .f32⟩ : BufTy).Contents (Elt F)),
    unary main_v16 main_v122 (broadcastInDim S64x100000x1 ![0, 1] bcast_S64x100000_S64x100000x1_0_1 : (⟨S64x100000, .f32⟩ : BufTy).Contents (Elt F) → (⟨S64x100000x1, .f32⟩ : BufTy).Contents (Elt F)),
    unary main_v21 main_v123 (broadcastInDim S64x100000x1 ![0, 1] bcast_S64x100000_S64x100000x1_0_1 : (⟨S64x100000, .f32⟩ : BufTy).Contents (Elt F) → (⟨S64x100000x1, .f32⟩ : BufTy).Contents (Elt F)),
    unary main_v26 main_v124 (broadcastInDim S64x100000x1 ![0, 1] bcast_S64x100000_S64x100000x1_0_1 : (⟨S64x100000, .f32⟩ : BufTy).Contents (Elt F) → (⟨S64x100000x1, .f32⟩ : BufTy).Contents (Elt F)),
    unary main_v31 main_v125 (broadcastInDim S64x100000x1 ![0, 1] bcast_S64x100000_S64x100000x1_0_1 : (⟨S64x100000, .f32⟩ : BufTy).Contents (Elt F) → (⟨S64x100000x1, .f32⟩ : BufTy).Contents (Elt F)),
    unary main_v36 main_v126 (broadcastInDim S64x100000x1 ![0, 1] bcast_S64x100000_S64x100000x1_0_1 : (⟨S64x100000, .f32⟩ : BufTy).Contents (Elt F) → (⟨S64x100000x1, .f32⟩ : BufTy).Contents (Elt F)),
    unary main_v44 main_v127 (broadcastInDim S64x100000x1 ![0, 1] bcast_S64x100000_S64x100000x1_0_1 : (⟨S64x100000, .f32⟩ : BufTy).Contents (Elt F) → (⟨S64x100000x1, .f32⟩ : BufTy).Contents (Elt F)),
    unary main_v52 main_v128 (broadcastInDim S64x100000x1 ![0, 1] bcast_S64x100000_S64x100000x1_0_1 : (⟨S64x100000, .f32⟩ : BufTy).Contents (Elt F) → (⟨S64x100000x1, .f32⟩ : BufTy).Contents (Elt F)),
    unary main_v60 main_v129 (broadcastInDim S64x100000x1 ![0, 1] bcast_S64x100000_S64x100000x1_0_1 : (⟨S64x100000, .f32⟩ : BufTy).Contents (Elt F) → (⟨S64x100000x1, .f32⟩ : BufTy).Contents (Elt F)),
    unary main_v68 main_v130 (broadcastInDim S64x100000x1 ![0, 1] bcast_S64x100000_S64x100000x1_0_1 : (⟨S64x100000, .f32⟩ : BufTy).Contents (Elt F) → (⟨S64x100000x1, .f32⟩ : BufTy).Contents (Elt F)),
    unary main_v76 main_v131 (broadcastInDim S64x100000x1 ![0, 1] bcast_S64x100000_S64x100000x1_0_1 : (⟨S64x100000, .f32⟩ : BufTy).Contents (Elt F) → (⟨S64x100000x1, .f32⟩ : BufTy).Contents (Elt F)),
    unary main_v84 main_v132 (broadcastInDim S64x100000x1 ![0, 1] bcast_S64x100000_S64x100000x1_0_1 : (⟨S64x100000, .f32⟩ : BufTy).Contents (Elt F) → (⟨S64x100000x1, .f32⟩ : BufTy).Contents (Elt F)),
    unary main_v92 main_v133 (broadcastInDim S64x100000x1 ![0, 1] bcast_S64x100000_S64x100000x1_0_1 : (⟨S64x100000, .f32⟩ : BufTy).Contents (Elt F) → (⟨S64x100000x1, .f32⟩ : BufTy).Contents (Elt F)),
    unary main_v100 main_v134 (broadcastInDim S64x100000x1 ![0, 1] bcast_S64x100000_S64x100000x1_0_1 : (⟨S64x100000, .f32⟩ : BufTy).Contents (Elt F) → (⟨S64x100000x1, .f32⟩ : BufTy).Contents (Elt F)),
    unary main_v108 main_v135 (broadcastInDim S64x100000x1 ![0, 1] bcast_S64x100000_S64x100000x1_0_1 : (⟨S64x100000, .f32⟩ : BufTy).Contents (Elt F) → (⟨S64x100000x1, .f32⟩ : BufTy).Contents (Elt F)),
    unary main_v116 main_v136 (broadcastInDim S64x100000x1 ![0, 1] bcast_S64x100000_S64x100000x1_0_1 : (⟨S64x100000, .f32⟩ : BufTy).Contents (Elt F) → (⟨S64x100000x1, .f32⟩ : BufTy).Contents (Elt F)),
    nary ![main_v117, main_v118, main_v119, main_v120, main_v121, main_v122, main_v123, main_v124, main_v125, main_v126, main_v127, main_v128, main_v129, main_v130, main_v131, main_v132] main_v137 (fun u => concatenate S64x100000x16 2 [⟨S64x100000x1, u 0⟩, ⟨S64x100000x1, u 1⟩, ⟨S64x100000x1, u 2⟩, ⟨S64x100000x1, u 3⟩, ⟨S64x100000x1, u 4⟩, ⟨S64x100000x1, u 5⟩, ⟨S64x100000x1, u 6⟩, ⟨S64x100000x1, u 7⟩, ⟨S64x100000x1, u 8⟩, ⟨S64x100000x1, u 9⟩, ⟨S64x100000x1, u 10⟩, ⟨S64x100000x1, u 11⟩, ⟨S64x100000x1, u 12⟩, ⟨S64x100000x1, u 13⟩, ⟨S64x100000x1, u 14⟩, ⟨S64x100000x1, u 15⟩] concatenates_S64x100000x1_S64x100000x1_S64x100000x1_S64x100000x1_S64x100000x1_S64x100000x1_S64x100000x1_S64x100000x1_S64x100000x1_S64x100000x1_S64x100000x1_S64x100000x1_S64x100000x1_S64x100000x1_S64x100000x1_S64x100000x1_S64x100000x16_d2),
    nary ![main_v133, main_v134, main_v135, main_v136] main_v138 (fun u => concatenate S64x100000x4 2 [⟨S64x100000x1, u 0⟩, ⟨S64x100000x1, u 1⟩, ⟨S64x100000x1, u 2⟩, ⟨S64x100000x1, u 3⟩] concatenates_S64x100000x1_S64x100000x1_S64x100000x1_S64x100000x1_S64x100000x4_d2),
    binary main_v137 main_v138 main_v139 ((fun a b => concatenate S64x100000x20 2 [⟨S64x100000x16, a⟩, ⟨S64x100000x4, b⟩] concatenates_S64x100000x16_S64x100000x4_S64x100000x20_d2) : (⟨S64x100000x16, .f32⟩ : BufTy).Contents (Elt F) → (⟨S64x100000x4, .f32⟩ : BufTy).Contents (Elt F) → (⟨S64x100000x20, .f32⟩ : BufTy).Contents (Elt F)),
    unary main_arg0 main_v140 (Host.sin : (⟨S64x100000x3, .f32⟩ : BufTy).Contents (Elt F) → (⟨S64x100000x3, .f32⟩ : BufTy).Contents (Elt F)),
    binary main_v139 main_v140 main_v141 ((fun a b => concatenate S64x100000x23 2 [⟨S64x100000x20, a⟩, ⟨S64x100000x3, b⟩] concatenates_S64x100000x20_S64x100000x3_S64x100000x23_d2) : (⟨S64x100000x20, .f32⟩ : BufTy).Contents (Elt F) → (⟨S64x100000x3, .f32⟩ : BufTy).Contents (Elt F) → (⟨S64x100000x23, .f32⟩ : BufTy).Contents (Elt F)),
    binary main_arg2 main_arg1 main_v142 (mulf : (⟨S23x3, .f32⟩ : BufTy).Contents (Elt F) → (⟨S23x3, .f32⟩ : BufTy).Contents (Elt F) → (⟨S23x3, .f32⟩ : BufTy).Contents (Elt F)),
    binary main_v141 main_v142 main_v143 ((fun l r => Host.dotGeneral dot_S64x100000x23_S23x3_S64x100000x3_2_0_01_1_n_n none l r) : (⟨S64x100000x23, .f32⟩ : BufTy).Contents (Elt F) → (⟨S23x3, .f32⟩ : BufTy).Contents (Elt F) → (⟨S64x100000x3, .f32⟩ : BufTy).Contents (Elt F)) ]

set_option maxRecDepth 8192 in
set_option maxHeartbeats 4000000 in
/-- Each printed window is its stretch run as a line. -/
theorem part0_eq (c : Dev nD) : main_part0 (F := F) c = seq ops0 := rfl
set_option maxRecDepth 8192 in
set_option maxHeartbeats 4000000 in
theorem part1_eq (c : Dev nD) : main_part1 (F := F) c = seq ops1 := rfl
set_option maxRecDepth 8192 in
set_option maxHeartbeats 4000000 in
theorem part2_eq (c : Dev nD) : main_part2 (F := F) c = seq ops2 := rfl

/-- The program is the three stretches in a row, run as one line. -/
theorem main_eq (c : Dev nD) : main (F := F) c = seq (ops0 ++ (ops1 ++ ops2)) := by
  rw [seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only: stretch by stretch. -/
theorem ops0_sub : (ops0 : List (HloOp τ sig (Elt F))).Forall fun op => op.bufs ⊆ tcRefs τ sig :=
  ⟨nullary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., binary_bufs_sub .., unary_bufs_sub .., reshape_bufs_sub .., unary_bufs_sub .., reshape_bufs_sub .., binary_bufs_sub .., unary_bufs_sub .., reshape_bufs_sub .., binary_bufs_sub .., unary_bufs_sub .., reshape_bufs_sub .., unary_bufs_sub .., reshape_bufs_sub .., binary_bufs_sub .., unary_bufs_sub ..⟩
set_option maxRecDepth 8192 in
theorem ops1_sub : (ops1 : List (HloOp τ sig (Elt F))).Forall fun op => op.bufs ⊆ tcRefs τ sig :=
  ⟨reshape_bufs_sub .., binary_bufs_sub .., unary_bufs_sub .., reshape_bufs_sub .., unary_bufs_sub .., reshape_bufs_sub .., binary_bufs_sub .., unary_bufs_sub .., reshape_bufs_sub .., binary_bufs_sub .., unary_bufs_sub .., reshape_bufs_sub .., unary_bufs_sub .., reshape_bufs_sub .., binary_bufs_sub .., unary_bufs_sub .., reshape_bufs_sub .., binary_bufs_sub .., unary_bufs_sub .., reshape_bufs_sub .., unary_bufs_sub .., reshape_bufs_sub .., binary_bufs_sub .., unary_bufs_sub .., reshape_bufs_sub .., binary_bufs_sub .., unary_bufs_sub .., reshape_bufs_sub .., unary_bufs_sub .., reshape_bufs_sub .., binary_bufs_sub .., unary_bufs_sub .., reshape_bufs_sub .., binary_bufs_sub .., unary_bufs_sub .., reshape_bufs_sub .., unary_bufs_sub .., reshape_bufs_sub .., binary_bufs_sub .., unary_bufs_sub .., reshape_bufs_sub .., binary_bufs_sub .., unary_bufs_sub .., reshape_bufs_sub .., unary_bufs_sub .., reshape_bufs_sub .., binary_bufs_sub .., unary_bufs_sub .., reshape_bufs_sub .., binary_bufs_sub .., unary_bufs_sub .., reshape_bufs_sub .., unary_bufs_sub .., reshape_bufs_sub .., binary_bufs_sub .., unary_bufs_sub .., reshape_bufs_sub .., binary_bufs_sub .., unary_bufs_sub .., unary_bufs_sub ..⟩
set_option maxRecDepth 8192 in
theorem ops2_sub : (ops2 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nary_bufs_sub .., binary_bufs_sub .., unary_bufs_sub .., binary_bufs_sub .., binary_bufs_sub .., binary_bufs_sub ..⟩

/-- … and so does every operation of the whole line. -/
theorem ops_sub : (ops0 ++ (ops1 ++ ops2) : List (HloOp τ sig (Elt F))).Forall fun op => op.bufs ⊆ tcRefs τ sig :=
  List.forall_iff_forall_mem.mpr fun op h => by
    rcases List.mem_append.mp h with h | h
    · exact List.forall_iff_forall_mem.mp ops0_sub op h
    · rcases List.mem_append.mp h with h | h
      · exact List.forall_iff_forall_mem.mp ops1_sub op h
      · exact List.forall_iff_forall_mem.mp ops2_sub op h

/-- Every operation determines its results (none allocates): stretch by stretch, by looking at each. -/
theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h

theorem ops_fresh : ∀ op ∈ (ops0 ++ (ops1 ++ ops2) : List (HloOp τ sig (Elt F))), op.fresh = ∅ := fun op h => by
  rcases List.mem_append.mp h with h | h
  · exact ops0_fresh op h
  · rcases List.mem_append.mp h with h | h
    · exact ops1_fresh op h
    · exact ops2_fresh op h

/-- THE LINE'S RUN: from any memory with zero counters every weakly fair execution terminates, and every buffer ends
    at the third stretch's contents after the second's after the first's after the launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after ops2 (after ops1 (after ops0 (launchContents m d))) (Proc.devRef .tc b) :=
  (θ_run defs _ _).mono (fun _ h d b => by rw [h d b, StableHlo.after_append, StableHlo.after_append])
    (run_seq scopedRefs_eq scopedSems_eq defs main (fun _ => ops0 ++ (ops1 ++ ops2)) main_eq (fun _ => ops_sub) m ρ
      (fun _ => ops_fresh))

end Cert.ReferenceIdeal.Line
-- ==== Proof.RefStages.lean ====
/-
  What the reference's three stretches leave in its result buffer.

  The line's run (RefLine) ends with every buffer at the fold of the three stretches' operations over the launch
  contents. Here that fold is evaluated at the result buffer. Every buffer of the program is written once, from buffers
  written before it, so what a stretch leaves in a buffer is a fixed expression in what the stretch found in the buffers
  it reads. Each stretch is therefore summarised, for an arbitrary valuation `V` it starts from, by what it leaves in the
  buffers later stretches read: the first stretch leaves the constant column, the three channels, the six products of two
  channels and its share of the products of three, each as the value read off the first argument; the second leaves the
  remaining products of three and the first two columns with their unit axis, and carries the first stretch's columns;
  the third, cut in two — the eighteen remaining columns given their unit axis, then the seven operations that join and
  contract —, leaves the contraction of the joined columns with the coefficient product `mask * W`. No stretch writes an
  argument. Substituting the summaries into one another, last stretch first, gives the result buffer as a nest of the
  per-operation values over the three arguments, which is the last operation's value by unfolding the definitions.
-/
import proofs.«162445_j8753143349705_1_alg».proof.Proof.RefLine
import proofs.«162445_j8753143349705_1_alg».proof.Proof.RefRead

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-! ## The first stretch

What it leaves in the buffers the later stretches read, from any valuation `V`: each is the operation's value read off
`V` at the first argument. -/

/-- The first stretch leaves the constant column in `main_v0`. -/
theorem s0_v0 (V : Valuation τ sig (Elt F)) :
    after ops0 V (Proc.devRef .tc main_v0) = ReadP.val_main_v0 (F := F) := by
  after_results_simp; rfl

/-- The first stretch leaves channel 0 in `main_v2`. -/
theorem s0_v2 (V : Valuation τ sig (Elt F)) :
    after ops0 V (Proc.devRef .tc main_v2) = ReadP.val_main_v2 (F := F) (V (Proc.devRef .tc main_arg0)) := by
  after_results_simp; rfl

/-- The first stretch leaves channel 1 in `main_v4`. -/
theorem s0_v4 (V : Valuation τ sig (Elt F)) :
    after ops0 V (Proc.devRef .tc main_v4) = ReadP.val_main_v4 (F := F) (V (Proc.devRef .tc main_arg0)) := by
  after_results_simp; rfl

/-- The first stretch leaves channel 2 in `main_v6`. -/
theorem s0_v6 (V : Valuation τ sig (Elt F)) :
    after ops0 V (Proc.devRef .tc main_v6) = ReadP.val_main_v6 (F := F) (V (Proc.devRef .tc main_arg0)) := by
  after_results_simp; rfl

/-- The first stretch leaves `x0 * x0` in `main_v11`. -/
theorem s0_v11 (V : Valuation τ sig (Elt F)) :
    after ops0 V (Proc.devRef .tc main_v11) = ReadP.val_main_v11 (F := F) (V (Proc.devRef .tc main_arg0)) := by
  after_results_simp; rfl

/-- The first stretch leaves `x0 * x1` in `main_v16`. -/
theorem s0_v16 (V : Valuation τ sig (Elt F)) :
    after ops0 V (Proc.devRef .tc main_v16) = ReadP.val_main_v16 (F := F) (V (Proc.devRef .tc main_arg0)) := by
  after_results_simp; rfl

/-- The first stretch leaves `x0 * x2` in `main_v21`. -/
theorem s0_v21 (V : Valuation τ sig (Elt F)) :
    after ops0 V (Proc.devRef .tc main_v21) = ReadP.val_main_v21 (F := F) (V (Proc.devRef .tc main_arg0)) := by
  after_results_simp; rfl

/-- The first stretch leaves `x1 * x1` in `main_v26`. -/
theorem s0_v26 (V : Valuation τ sig (Elt F)) :
    after ops0 V (Proc.devRef .tc main_v26) = ReadP.val_main_v26 (F := F) (V (Proc.devRef .tc main_arg0)) := by
  after_results_simp; rfl

/-- The first stretch leaves `x1 * x2` in `main_v31`. -/
theorem s0_v31 (V : Valuation τ sig (Elt F)) :
    after ops0 V (Proc.devRef .tc main_v31) = ReadP.val_main_v31 (F := F) (V (Proc.devRef .tc main_arg0)) := by
  after_results_simp; rfl

/-- The first stretch leaves `x2 * x2` in `main_v36`. -/
theorem s0_v36 (V : Valuation τ sig (Elt F)) :
    after ops0 V (Proc.devRef .tc main_v36) = ReadP.val_main_v36 (F := F) (V (Proc.devRef .tc main_arg0)) := by
  after_results_simp; rfl

/-- The first stretch leaves `x0 * x0 * x0` in `main_v44`. -/
theorem s0_v44 (V : Valuation τ sig (Elt F)) :
    after ops0 V (Proc.devRef .tc main_v44) = ReadP.val_main_v44 (F := F) (V (Proc.devRef .tc main_arg0)) := by
  after_results_simp; rfl

/-- The first stretch leaves `x0 * x0 * x1` in `main_v52`. -/
theorem s0_v52 (V : Valuation τ sig (Elt F)) :
    after ops0 V (Proc.devRef .tc main_v52) = ReadP.val_main_v52 (F := F) (V (Proc.devRef .tc main_arg0)) := by
  after_results_simp; rfl

/-- The first stretch leaves `x0 * x0`, the opening of `x0 * x0 * x2`, in `main_v57`. -/
theorem s0_v57 (V : Valuation τ sig (Elt F)) :
    after ops0 V (Proc.devRef .tc main_v57) = ReadP.val_main_v57 (F := F) (V (Proc.devRef .tc main_arg0)) := by
  after_results_simp; rfl

/-- The first stretch leaves the slice of channel 2 that `x0 * x0 * x2` takes in `main_v58`. -/
theorem s0_v58 (V : Valuation τ sig (Elt F)) :
    after ops0 V (Proc.devRef .tc main_v58) = ReadP.val_main_v58 (F := F) (V (Proc.devRef .tc main_arg0)) := by
  after_results_simp; rfl

/-- The first stretch does not write the first argument. -/
theorem s0_arg0 (V : Valuation τ sig (Elt F)) :
    after ops0 V (Proc.devRef .tc main_arg0) = V (Proc.devRef .tc main_arg0) := by
  after_results_simp

/-- The first stretch does not write the second argument. -/
theorem s0_arg1 (V : Valuation τ sig (Elt F)) :
    after ops0 V (Proc.devRef .tc main_arg1) = V (Proc.devRef .tc main_arg1) := by
  after_results_simp

/-- The first stretch does not write the third argument. -/
theorem s0_arg2 (V : Valuation τ sig (Elt F)) :
    after ops0 V (Proc.devRef .tc main_arg2) = V (Proc.devRef .tc main_arg2) := by
  after_results_simp

/-! ## The second stretch

It finishes `x0 * x0 * x2` from the two buffers the first stretch left for it, computes the seven remaining products of
three channels from the first argument, gives the first two columns their unit axis, and leaves alone the ten columns of
the first stretch that the third stretch reads. -/

/-- A column given its unit axis. -/
abbrev col (x : (⟨S64x100000, .f32⟩ : BufTy).Contents (Elt F)) : (⟨S64x100000x1, .f32⟩ : BufTy).Contents (Elt F) :=
  broadcastInDim S64x100000x1 ![0, 1] bcast_S64x100000_S64x100000x1_0_1 x

/-- The second stretch leaves in `main_v60` the product of what it found in `main_v57` and the reshaped `main_v58`. -/
theorem s1_v60 (V : Valuation τ sig (Elt F)) :
    after ops1 V (Proc.devRef .tc main_v60)
      = mulf (V (Proc.devRef .tc main_v57)) (shapeCast _ (V (Proc.devRef .tc main_v58)) shapeCasts_S64x100000x1_S64x100000) := by
  after_results_simp; rfl

/-- The second stretch leaves `x0 * x1 * x1` in `main_v68`. -/
theorem s1_v68 (V : Valuation τ sig (Elt F)) :
    after ops1 V (Proc.devRef .tc main_v68) = ReadP.val_main_v68 (F := F) (V (Proc.devRef .tc main_arg0)) := by
  after_results_simp; rfl

/-- The second stretch leaves `x0 * x1 * x2` in `main_v76`. -/
theorem s1_v76 (V : Valuation τ sig (Elt F)) :
    after ops1 V (Proc.devRef .tc main_v76) = ReadP.val_main_v76 (F := F) (V (Proc.devRef .tc main_arg0)) := by
  after_results_simp; rfl

/-- The second stretch leaves `x0 * x2 * x2` in `main_v84`. -/
theorem s1_v84 (V : Valuation τ sig (Elt F)) :
    after ops1 V (Proc.devRef .tc main_v84) = ReadP.val_main_v84 (F := F) (V (Proc.devRef .tc main_arg0)) := by
  after_results_simp; rfl

/-- The second stretch leaves `x1 * x1 * x1` in `main_v92`. -/
theorem s1_v92 (V : Valuation τ sig (Elt F)) :
    after ops1 V (Proc.devRef .tc main_v92) = ReadP.val_main_v92 (F := F) (V (Proc.devRef .tc main_arg0)) := by
  after_results_simp; rfl

/-- The second stretch leaves `x1 * x1 * x2` in `main_v100`. -/
theorem s1_v100 (V : Valuation τ sig (Elt F)) :
    after ops1 V (Proc.devRef .tc main_v100) = ReadP.val_main_v100 (F := F) (V (Proc.devRef .tc main_arg0)) := by
  after_results_simp; rfl

/-- The second stretch leaves `x1 * x2 * x2` in `main_v108`. -/
theorem s1_v108 (V : Valuation τ sig (Elt F)) :
    after ops1 V (Proc.devRef .tc main_v108) = ReadP.val_main_v108 (F := F) (V (Proc.devRef .tc main_arg0)) := by
  after_results_simp; rfl

/-- The second stretch leaves `x2 * x2 * x2` in `main_v116`. -/
theorem s1_v116 (V : Valuation τ sig (Elt F)) :
    after ops1 V (Proc.devRef .tc main_v116) = ReadP.val_main_v116 (F := F) (V (Proc.devRef .tc main_arg0)) := by
  after_results_simp; rfl

/-- The second stretch leaves in `main_v117` what it found in `main_v0`, given its unit axis. -/
theorem s1_v117 (V : Valuation τ sig (Elt F)) :
    after ops1 V (Proc.devRef .tc main_v117) = col (V (Proc.devRef .tc main_v0)) := by
  after_results_simp

/-- The second stretch leaves in `main_v118` what it found in `main_v2`, given its unit axis. -/
theorem s1_v118 (V : Valuation τ sig (Elt F)) :
    after ops1 V (Proc.devRef .tc main_v118) = col (V (Proc.devRef .tc main_v2)) := by
  after_results_simp

/-- The second stretch does not write `main_v4` (channel 1). -/
theorem s1_v4 (V : Valuation τ sig (Elt F)) :
    after ops1 V (Proc.devRef .tc main_v4) = V (Proc.devRef .tc main_v4) := by
  after_results_simp

/-- The second stretch does not write `main_v6` (channel 2). -/
theorem s1_v6 (V : Valuation τ sig (Elt F)) :
    after ops1 V (Proc.devRef .tc main_v6) = V (Proc.devRef .tc main_v6) := by
  after_results_simp

/-- The second stretch does not write `main_v11` (`x0 * x0`). -/
theorem s1_v11 (V : Valuation τ sig (Elt F)) :
    after ops1 V (Proc.devRef .tc main_v11) = V (Proc.devRef .tc main_v11) := by
  after_results_simp

/-- The second stretch does not write `main_v16` (`x0 * x1`). -/
theorem s1_v16 (V : Valuation τ sig (Elt F)) :
    after ops1 V (Proc.devRef .tc main_v16) = V (Proc.devRef .tc main_v16) := by
  after_results_simp

/-- The second stretch does not write `main_v21` (`x0 * x2`). -/
theorem s1_v21 (V : Valuation τ sig (Elt F)) :
    after ops1 V (Proc.devRef .tc main_v21) = V (Proc.devRef .tc main_v21) := by
  after_results_simp

/-- The second stretch does not write `main_v26` (`x1 * x1`). -/
theorem s1_v26 (V : Valuation τ sig (Elt F)) :
    after ops1 V (Proc.devRef .tc main_v26) = V (Proc.devRef .tc main_v26) := by
  after_results_simp

/-- The second stretch does not write `main_v31` (`x1 * x2`). -/
theorem s1_v31 (V : Valuation τ sig (Elt F)) :
    after ops1 V (Proc.devRef .tc main_v31) = V (Proc.devRef .tc main_v31) := by
  after_results_simp

/-- The second stretch does not write `main_v36` (`x2 * x2`). -/
theorem s1_v36 (V : Valuation τ sig (Elt F)) :
    after ops1 V (Proc.devRef .tc main_v36) = V (Proc.devRef .tc main_v36) := by
  after_results_simp

/-- The second stretch does not write `main_v44` (`x0 * x0 * x0`). -/
theorem s1_v44 (V : Valuation τ sig (Elt F)) :
    after ops1 V (Proc.devRef .tc main_v44) = V (Proc.devRef .tc main_v44) := by
  after_results_simp

/-- The second stretch does not write `main_v52` (`x0 * x0 * x1`). -/
theorem s1_v52 (V : Valuation τ sig (Elt F)) :
    after ops1 V (Proc.devRef .tc main_v52) = V (Proc.devRef .tc main_v52) := by
  after_results_simp

/-- The second stretch does not write the first argument. -/
theorem s1_arg0 (V : Valuation τ sig (Elt F)) :
    after ops1 V (Proc.devRef .tc main_arg0) = V (Proc.devRef .tc main_arg0) := by
  after_results_simp

/-- The second stretch does not write the second argument. -/
theorem s1_arg1 (V : Valuation τ sig (Elt F)) :
    after ops1 V (Proc.devRef .tc main_arg1) = V (Proc.devRef .tc main_arg1) := by
  after_results_simp

/-- The second stretch does not write the third argument. -/
theorem s1_arg2 (V : Valuation τ sig (Elt F)) :
    after ops1 V (Proc.devRef .tc main_arg2) = V (Proc.devRef .tc main_arg2) := by
  after_results_simp

/-! ## The third stretch, in two parts

The third stretch is cut after its eighteenth operation. The first part gives the eighteen remaining columns their unit
axis; the second joins the twenty columns and the three sines and contracts them with the coefficient product. The cut is
where the sixteen-column join comes first: its operands are then read off the valuation the part starts from. -/

/-- The third stretch's first part: the eighteen remaining columns given their unit axis. -/
abbrev ops2a : List (HloOp τ sig (Elt F)) :=
  [ unary main_v4 main_v119 (broadcastInDim S64x100000x1 ![0, 1] bcast_S64x100000_S64x100000x1_0_1 : (⟨S64x100000, .f32⟩ : BufTy).Contents (Elt F) → (⟨S64x100000x1, .f32⟩ : BufTy).Contents (Elt F)),
    unary main_v6 main_v120 (broadcastInDim S64x100000x1 ![0, 1] bcast_S64x100000_S64x100000x1_0_1 : (⟨S64x100000, .f32⟩ : BufTy).Contents (Elt F) → (⟨S64x100000x1, .f32⟩ : BufTy).Contents (Elt F)),
    unary main_v11 main_v121 (broadcastInDim S64x100000x1 ![0, 1] bcast_S64x100000_S64x100000x1_0_1 : (⟨S64x100000, .f32⟩ : BufTy).Contents (Elt F) → (⟨S64x100000x1, .f32⟩ : BufTy).Contents (Elt F)),
    unary main_v16 main_v122 (broadcastInDim S64x100000x1 ![0, 1] bcast_S64x100000_S64x100000x1_0_1 : (⟨S64x100000, .f32⟩ : BufTy).Contents (Elt F) → (⟨S64x100000x1, .f32⟩ : BufTy).Contents (Elt F)),
    unary main_v21 main_v123 (broadcastInDim S64x100000x1 ![0, 1] bcast_S64x100000_S64x100000x1_0_1 : (⟨S64x100000, .f32⟩ : BufTy).Contents (Elt F) → (⟨S64x100000x1, .f32⟩ : BufTy).Contents (Elt F)),
    unary main_v26 main_v124 (broadcastInDim S64x100000x1 ![0, 1] bcast_S64x100000_S64x100000x1_0_1 : (⟨S64x100000, .f32⟩ : BufTy).Contents (Elt F) → (⟨S64x100000x1, .f32⟩ : BufTy).Contents (Elt F)),
    unary main_v31 main_v125 (broadcastInDim S64x100000x1 ![0, 1] bcast_S64x100000_S64x100000x1_0_1 : (⟨S64x100000, .f32⟩ : BufTy).Contents (Elt F) → (⟨S64x100000x1, .f32⟩ : BufTy).Contents (Elt F)),
    unary main_v36 main_v126 (broadcastInDim S64x100000x1 ![0, 1] bcast_S64x100000_S64x100000x1_0_1 : (⟨S64x100000, .f32⟩ : BufTy).Contents (Elt F) → (⟨S64x100000x1, .f32⟩ : BufTy).Contents (Elt F)),
    unary main_v44 main_v127 (broadcastInDim S64x100000x1 ![0, 1] bcast_S64x100000_S64x100000x1_0_1 : (⟨S64x100000, .f32⟩ : BufTy).Contents (Elt F) → (⟨S64x100000x1, .f32⟩ : BufTy).Contents (Elt F)),
    unary main_v52 main_v128 (broadcastInDim S64x100000x1 ![0, 1] bcast_S64x100000_S64x100000x1_0_1 : (⟨S64x100000, .f32⟩ : BufTy).Contents (Elt F) → (⟨S64x100000x1, .f32⟩ : BufTy).Contents (Elt F)),
    unary main_v60 main_v129 (broadcastInDim S64x100000x1 ![0, 1] bcast_S64x100000_S64x100000x1_0_1 : (⟨S64x100000, .f32⟩ : BufTy).Contents (Elt F) → (⟨S64x100000x1, .f32⟩ : BufTy).Contents (Elt F)),
    unary main_v68 main_v130 (broadcastInDim S64x100000x1 ![0, 1] bcast_S64x100000_S64x100000x1_0_1 : (⟨S64x100000, .f32⟩ : BufTy).Contents (Elt F) → (⟨S64x100000x1, .f32⟩ : BufTy).Contents (Elt F)),
    unary main_v76 main_v131 (broadcastInDim S64x100000x1 ![0, 1] bcast_S64x100000_S64x100000x1_0_1 : (⟨S64x100000, .f32⟩ : BufTy).Contents (Elt F) → (⟨S64x100000x1, .f32⟩ : BufTy).Contents (Elt F)),
    unary main_v84 main_v132 (broadcastInDim S64x100000x1 ![0, 1] bcast_S64x100000_S64x100000x1_0_1 : (⟨S64x100000, .f32⟩ : BufTy).Contents (Elt F) → (⟨S64x100000x1, .f32⟩ : BufTy).Contents (Elt F)),
    unary main_v92 main_v133 (broadcastInDim S64x100000x1 ![0, 1] bcast_S64x100000_S64x100000x1_0_1 : (⟨S64x100000, .f32⟩ : BufTy).Contents (Elt F) → (⟨S64x100000x1, .f32⟩ : BufTy).Contents (Elt F)),
    unary main_v100 main_v134 (broadcastInDim S64x100000x1 ![0, 1] bcast_S64x100000_S64x100000x1_0_1 : (⟨S64x100000, .f32⟩ : BufTy).Contents (Elt F) → (⟨S64x100000x1, .f32⟩ : BufTy).Contents (Elt F)),
    unary main_v108 main_v135 (broadcastInDim S64x100000x1 ![0, 1] bcast_S64x100000_S64x100000x1_0_1 : (⟨S64x100000, .f32⟩ : BufTy).Contents (Elt F) → (⟨S64x100000x1, .f32⟩ : BufTy).Contents (Elt F)),
    unary main_v116 main_v136 (broadcastInDim S64x100000x1 ![0, 1] bcast_S64x100000_S64x100000x1_0_1 : (⟨S64x100000, .f32⟩ : BufTy).Contents (Elt F) → (⟨S64x100000x1, .f32⟩ : BufTy).Contents (Elt F)) ]

/-- The third stretch's second part: the columns joined, the sines joined after them, the coefficient product, and the
    contraction. -/
abbrev ops2b : List (HloOp τ sig (Elt F)) :=
  [ nary ![main_v117, main_v118, main_v119, main_v120, main_v121, main_v122, main_v123, main_v124, main_v125, main_v126, main_v127, main_v128, main_v129, main_v130, main_v131, main_v132] main_v137 (fun u => concatenate S64x100000x16 2 [⟨S64x100000x1, u 0⟩, ⟨S64x100000x1, u 1⟩, ⟨S64x100000x1, u 2⟩, ⟨S64x100000x1, u 3⟩, ⟨S64x100000x1, u 4⟩, ⟨S64x100000x1, u 5⟩, ⟨S64x100000x1, u 6⟩, ⟨S64x100000x1, u 7⟩, ⟨S64x100000x1, u 8⟩, ⟨S64x100000x1, u 9⟩, ⟨S64x100000x1, u 10⟩, ⟨S64x100000x1, u 11⟩, ⟨S64x100000x1, u 12⟩, ⟨S64x100000x1, u 13⟩, ⟨S64x100000x1, u 14⟩, ⟨S64x100000x1, u 15⟩] concatenates_S64x100000x1_S64x100000x1_S64x100000x1_S64x100000x1_S64x100000x1_S64x100000x1_S64x100000x1_S64x100000x1_S64x100000x1_S64x100000x1_S64x100000x1_S64x100000x1_S64x100000x1_S64x100000x1_S64x100000x1_S64x100000x1_S64x100000x16_d2),
    nary ![main_v133, main_v134, main_v135, main_v136] main_v138 (fun u => concatenate S64x100000x4 2 [⟨S64x100000x1, u 0⟩, ⟨S64x100000x1, u 1⟩, ⟨S64x100000x1, u 2⟩, ⟨S64x100000x1, u 3⟩] concatenates_S64x100000x1_S64x100000x1_S64x100000x1_S64x100000x1_S64x100000x4_d2),
    binary main_v137 main_v138 main_v139 ((fun a b => concatenate S64x100000x20 2 [⟨S64x100000x16, a⟩, ⟨S64x100000x4, b⟩] concatenates_S64x100000x16_S64x100000x4_S64x100000x20_d2) : (⟨S64x100000x16, .f32⟩ : BufTy).Contents (Elt F) → (⟨S64x100000x4, .f32⟩ : BufTy).Contents (Elt F) → (⟨S64x100000x20, .f32⟩ : BufTy).Contents (Elt F)),
    unary main_arg0 main_v140 (Host.sin : (⟨S64x100000x3, .f32⟩ : BufTy).Contents (Elt F) → (⟨S64x100000x3, .f32⟩ : BufTy).Contents (Elt F)),
    binary main_v139 main_v140 main_v141 ((fun a b => concatenate S64x100000x23 2 [⟨S64x100000x20, a⟩, ⟨S64x100000x3, b⟩] concatenates_S64x100000x20_S64x100000x3_S64x100000x23_d2) : (⟨S64x100000x20, .f32⟩ : BufTy).Contents (Elt F) → (⟨S64x100000x3, .f32⟩ : BufTy).Contents (Elt F) → (⟨S64x100000x23, .f32⟩ : BufTy).Contents (Elt F)),
    binary main_arg2 main_arg1 main_v142 (mulf : (⟨S23x3, .f32⟩ : BufTy).Contents (Elt F) → (⟨S23x3, .f32⟩ : BufTy).Contents (Elt F) → (⟨S23x3, .f32⟩ : BufTy).Contents (Elt F)),
    binary main_v141 main_v142 main_v143 ((fun l r => Host.dotGeneral dot_S64x100000x23_S23x3_S64x100000x3_2_0_01_1_n_n none l r) : (⟨S64x100000x23, .f32⟩ : BufTy).Contents (Elt F) → (⟨S23x3, .f32⟩ : BufTy).Contents (Elt F) → (⟨S64x100000x3, .f32⟩ : BufTy).Contents (Elt F)) ]

set_option maxRecDepth 8192 in
set_option maxHeartbeats 4000000 in
/-- The third stretch is its two parts in a row. -/
theorem ops2_split : (ops2 : List (HloOp τ sig (Elt F))) = ops2a ++ ops2b := rfl

/-- The first part leaves in `main_v119` what it found in `main_v4`, given its unit axis. -/
theorem s2a_v119 (V : Valuation τ sig (Elt F)) :
    after ops2a V (Proc.devRef .tc main_v119) = col (V (Proc.devRef .tc main_v4)) := by
  after_results_simp

/-- The first part leaves in `main_v120` what it found in `main_v6`, given its unit axis. -/
theorem s2a_v120 (V : Valuation τ sig (Elt F)) :
    after ops2a V (Proc.devRef .tc main_v120) = col (V (Proc.devRef .tc main_v6)) := by
  after_results_simp

/-- The first part leaves in `main_v121` what it found in `main_v11`, given its unit axis. -/
theorem s2a_v121 (V : Valuation τ sig (Elt F)) :
    after ops2a V (Proc.devRef .tc main_v121) = col (V (Proc.devRef .tc main_v11)) := by
  after_results_simp

/-- The first part leaves in `main_v122` what it found in `main_v16`, given its unit axis. -/
theorem s2a_v122 (V : Valuation τ sig (Elt F)) :
    after ops2a V (Proc.devRef .tc main_v122) = col (V (Proc.devRef .tc main_v16)) := by
  after_results_simp

/-- The first part leaves in `main_v123` what it found in `main_v21`, given its unit axis. -/
theorem s2a_v123 (V : Valuation τ sig (Elt F)) :
    after ops2a V (Proc.devRef .tc main_v123) = col (V (Proc.devRef .tc main_v21)) := by
  after_results_simp

/-- The first part leaves in `main_v124` what it found in `main_v26`, given its unit axis. -/
theorem s2a_v124 (V : Valuation τ sig (Elt F)) :
    after ops2a V (Proc.devRef .tc main_v124) = col (V (Proc.devRef .tc main_v26)) := by
  after_results_simp

/-- The first part leaves in `main_v125` what it found in `main_v31`, given its unit axis. -/
theorem s2a_v125 (V : Valuation τ sig (Elt F)) :
    after ops2a V (Proc.devRef .tc main_v125) = col (V (Proc.devRef .tc main_v31)) := by
  after_results_simp

/-- The first part leaves in `main_v126` what it found in `main_v36`, given its unit axis. -/
theorem s2a_v126 (V : Valuation τ sig (Elt F)) :
    after ops2a V (Proc.devRef .tc main_v126) = col (V (Proc.devRef .tc main_v36)) := by
  after_results_simp

/-- The first part leaves in `main_v127` what it found in `main_v44`, given its unit axis. -/
theorem s2a_v127 (V : Valuation τ sig (Elt F)) :
    after ops2a V (Proc.devRef .tc main_v127) = col (V (Proc.devRef .tc main_v44)) := by
  after_results_simp

/-- The first part leaves in `main_v128` what it found in `main_v52`, given its unit axis. -/
theorem s2a_v128 (V : Valuation τ sig (Elt F)) :
    after ops2a V (Proc.devRef .tc main_v128) = col (V (Proc.devRef .tc main_v52)) := by
  after_results_simp

/-- The first part leaves in `main_v129` what it found in `main_v60`, given its unit axis. -/
theorem s2a_v129 (V : Valuation τ sig (Elt F)) :
    after ops2a V (Proc.devRef .tc main_v129) = col (V (Proc.devRef .tc main_v60)) := by
  after_results_simp

/-- The first part leaves in `main_v130` what it found in `main_v68`, given its unit axis. -/
theorem s2a_v130 (V : Valuation τ sig (Elt F)) :
    after ops2a V (Proc.devRef .tc main_v130) = col (V (Proc.devRef .tc main_v68)) := by
  after_results_simp

/-- The first part leaves in `main_v131` what it found in `main_v76`, given its unit axis. -/
theorem s2a_v131 (V : Valuation τ sig (Elt F)) :
    after ops2a V (Proc.devRef .tc main_v131) = col (V (Proc.devRef .tc main_v76)) := by
  after_results_simp

/-- The first part leaves in `main_v132` what it found in `main_v84`, given its unit axis. -/
theorem s2a_v132 (V : Valuation τ sig (Elt F)) :
    after ops2a V (Proc.devRef .tc main_v132) = col (V (Proc.devRef .tc main_v84)) := by
  after_results_simp

/-- The first part leaves in `main_v133` what it found in `main_v92`, given its unit axis. -/
theorem s2a_v133 (V : Valuation τ sig (Elt F)) :
    after ops2a V (Proc.devRef .tc main_v133) = col (V (Proc.devRef .tc main_v92)) := by
  after_results_simp

/-- The first part leaves in `main_v134` what it found in `main_v100`, given its unit axis. -/
theorem s2a_v134 (V : Valuation τ sig (Elt F)) :
    after ops2a V (Proc.devRef .tc main_v134) = col (V (Proc.devRef .tc main_v100)) := by
  after_results_simp

/-- The first part leaves in `main_v135` what it found in `main_v108`, given its unit axis. -/
theorem s2a_v135 (V : Valuation τ sig (Elt F)) :
    after ops2a V (Proc.devRef .tc main_v135) = col (V (Proc.devRef .tc main_v108)) := by
  after_results_simp

/-- The first part leaves in `main_v136` what it found in `main_v116`, given its unit axis. -/
theorem s2a_v136 (V : Valuation τ sig (Elt F)) :
    after ops2a V (Proc.devRef .tc main_v136) = col (V (Proc.devRef .tc main_v116)) := by
  after_results_simp

/-- The first part does not write `main_v117` (the constant column with its unit axis). -/
theorem s2a_v117 (V : Valuation τ sig (Elt F)) :
    after ops2a V (Proc.devRef .tc main_v117) = V (Proc.devRef .tc main_v117) := by
  after_results_simp

/-- The first part does not write `main_v118` (channel 0 with its unit axis). -/
theorem s2a_v118 (V : Valuation τ sig (Elt F)) :
    after ops2a V (Proc.devRef .tc main_v118) = V (Proc.devRef .tc main_v118) := by
  after_results_simp

/-- The first part does not write the first argument. -/
theorem s2a_arg0 (V : Valuation τ sig (Elt F)) :
    after ops2a V (Proc.devRef .tc main_arg0) = V (Proc.devRef .tc main_arg0) := by
  after_results_simp

/-- The first part does not write the second argument. -/
theorem s2a_arg1 (V : Valuation τ sig (Elt F)) :
    after ops2a V (Proc.devRef .tc main_arg1) = V (Proc.devRef .tc main_arg1) := by
  after_results_simp

/-- The first part does not write the third argument. -/
theorem s2a_arg2 (V : Valuation τ sig (Elt F)) :
    after ops2a V (Proc.devRef .tc main_arg2) = V (Proc.devRef .tc main_arg2) := by
  after_results_simp

/-- What the last seven operations compute: the twenty columns joined (sixteen, then four, then the two groups), the
    sines of the three channels joined after them, and the 23 columns contracted with the coefficient product `x2 * x1`. -/
def contraction
    (c117 c118 c119 c120 c121 c122 c123 c124 c125 c126 c127 c128 c129 c130 c131 c132 c133 c134 c135 c136 :
      (⟨S64x100000x1, .f32⟩ : BufTy).Contents (Elt F))
    (x0 : (⟨S64x100000x3, .f32⟩ : BufTy).Contents (Elt F)) (x1 x2 : (⟨S23x3, .f32⟩ : BufTy).Contents (Elt F)) :
    (⟨S64x100000x3, .f32⟩ : BufTy).Contents (Elt F) :=
  Host.dotGeneral dot_S64x100000x23_S23x3_S64x100000x3_2_0_01_1_n_n none
    (concatenate S64x100000x23 2
      [⟨S64x100000x20, concatenate S64x100000x20 2
        [⟨S64x100000x16, concatenate S64x100000x16 2
          [⟨S64x100000x1, c117⟩, ⟨S64x100000x1, c118⟩, ⟨S64x100000x1, c119⟩, ⟨S64x100000x1, c120⟩,
           ⟨S64x100000x1, c121⟩, ⟨S64x100000x1, c122⟩, ⟨S64x100000x1, c123⟩, ⟨S64x100000x1, c124⟩,
           ⟨S64x100000x1, c125⟩, ⟨S64x100000x1, c126⟩, ⟨S64x100000x1, c127⟩, ⟨S64x100000x1, c128⟩,
           ⟨S64x100000x1, c129⟩, ⟨S64x100000x1, c130⟩, ⟨S64x100000x1, c131⟩, ⟨S64x100000x1, c132⟩]
          concatenates_S64x100000x1_S64x100000x1_S64x100000x1_S64x100000x1_S64x100000x1_S64x100000x1_S64x100000x1_S64x100000x1_S64x100000x1_S64x100000x1_S64x100000x1_S64x100000x1_S64x100000x1_S64x100000x1_S64x100000x1_S64x100000x1_S64x100000x16_d2⟩,
         ⟨S64x100000x4, concatenate S64x100000x4 2
          [⟨S64x100000x1, c133⟩, ⟨S64x100000x1, c134⟩, ⟨S64x100000x1, c135⟩, ⟨S64x100000x1, c136⟩]
          concatenates_S64x100000x1_S64x100000x1_S64x100000x1_S64x100000x1_S64x100000x4_d2⟩]
        concatenates_S64x100000x16_S64x100000x4_S64x100000x20_d2⟩,
       ⟨S64x100000x3, Host.sin x0⟩]
      concatenates_S64x100000x20_S64x100000x3_S64x100000x23_d2)
    (mulf x2 x1)

/-- One rewrite of an operation's result in the second part: at its own buffer to its function's value (the four-column
    join with each operand at its own reference), at another reference to what was there. The sixteen-column join at its
    own buffer is left for `nary_result`, whose operand family is then read off the starting valuation. -/
macro "join_step" : tactic =>
  `(tactic| (first
               | rw [unary_result] | rw [binary_result] | rw [nary4_result]
               | (rw [unary_result_ne]; rotate_left; decide)
               | (rw [binary_result_ne]; rotate_left; decide)
               | (rw [nary_result_ne]; rotate_left; decide)))

/-- The second part leaves in `main_v143` the contraction of the twenty columns it found in `main_v117` … `main_v136`
    and the sines of the first argument with the product of the third and second arguments. -/
theorem s2b_v143 (W : Valuation τ sig (Elt F)) :
    after ops2b W (Proc.devRef .tc main_v143)
      = contraction (W (Proc.devRef .tc main_v117)) (W (Proc.devRef .tc main_v118)) (W (Proc.devRef .tc main_v119))
          (W (Proc.devRef .tc main_v120)) (W (Proc.devRef .tc main_v121)) (W (Proc.devRef .tc main_v122))
          (W (Proc.devRef .tc main_v123)) (W (Proc.devRef .tc main_v124)) (W (Proc.devRef .tc main_v125))
          (W (Proc.devRef .tc main_v126)) (W (Proc.devRef .tc main_v127)) (W (Proc.devRef .tc main_v128))
          (W (Proc.devRef .tc main_v129)) (W (Proc.devRef .tc main_v130)) (W (Proc.devRef .tc main_v131))
          (W (Proc.devRef .tc main_v132)) (W (Proc.devRef .tc main_v133)) (W (Proc.devRef .tc main_v134))
          (W (Proc.devRef .tc main_v135)) (W (Proc.devRef .tc main_v136))
          (W (Proc.devRef .tc main_arg0)) (W (Proc.devRef .tc main_arg1)) (W (Proc.devRef .tc main_arg2)) := by
  simp only [after_cons, after_nil]
  repeat join_step
  rw [nary_result]
  repeat join_step
  rfl

/-- The second part does not write the first argument. -/
theorem s2b_arg0 (W : Valuation τ sig (Elt F)) :
    after ops2b W (Proc.devRef .tc main_arg0) = W (Proc.devRef .tc main_arg0) := by
  after_results_simp

/-- The second part does not write the second argument. -/
theorem s2b_arg1 (W : Valuation τ sig (Elt F)) :
    after ops2b W (Proc.devRef .tc main_arg1) = W (Proc.devRef .tc main_arg1) := by
  after_results_simp

/-- The second part does not write the third argument. -/
theorem s2b_arg2 (W : Valuation τ sig (Elt F)) :
    after ops2b W (Proc.devRef .tc main_arg2) = W (Proc.devRef .tc main_arg2) := by
  after_results_simp

/-! ## The three stretches composed -/

/-- The result buffer after the three stretches, from any valuation `V`: the last operation's value at what `V` holds in
    the three arguments. The summaries are substituted last stretch first, and the nest of per-operation values that is
    left is the last operation's value by unfolding the definitions. -/
theorem after_v143 (V : Valuation τ sig (Elt F)) :
    after ops2 (after ops1 (after ops0 V)) (Proc.devRef .tc main_v143)
      = ReadP.val_main_v143 (F := F) (V (Proc.devRef .tc main_arg0)) (V (Proc.devRef .tc main_arg1))
          (V (Proc.devRef .tc main_arg2)) := by
  rw [ops2_split, after_append, s2b_v143]
  rw [s2a_v117, s2a_v118, s2a_v119, s2a_v120, s2a_v121, s2a_v122, s2a_v123, s2a_v124, s2a_v125, s2a_v126, s2a_v127,
    s2a_v128, s2a_v129, s2a_v130, s2a_v131, s2a_v132, s2a_v133, s2a_v134, s2a_v135, s2a_v136, s2a_arg0, s2a_arg1, s2a_arg2]
  rw [s1_v117, s1_v118, s1_v4, s1_v6, s1_v11, s1_v16, s1_v21, s1_v26, s1_v31, s1_v36, s1_v44, s1_v52, s1_v60, s1_v68,
    s1_v76, s1_v84, s1_v92, s1_v100, s1_v108, s1_v116, s1_arg0, s1_arg1, s1_arg2]
  rw [s0_v0, s0_v2, s0_v4, s0_v6, s0_v11, s0_v16, s0_v21, s0_v26, s0_v31, s0_v36, s0_v44, s0_v52, s0_v57, s0_v58,
    s0_arg0, s0_arg1, s0_arg2]
  rfl

/-- No stretch writes the first argument. -/
theorem after_arg0 (V : Valuation τ sig (Elt F)) :
    after ops2 (after ops1 (after ops0 V)) (Proc.devRef .tc main_arg0) = V (Proc.devRef .tc main_arg0) := by
  rw [ops2_split, after_append, s2b_arg0, s2a_arg0, s1_arg0, s0_arg0]

/-- No stretch writes the second argument. -/
theorem after_arg1 (V : Valuation τ sig (Elt F)) :
    after ops2 (after ops1 (after ops0 V)) (Proc.devRef .tc main_arg1) = V (Proc.devRef .tc main_arg1) := by
  rw [ops2_split, after_append, s2b_arg1, s2a_arg1, s1_arg1, s0_arg1]

/-- No stretch writes the third argument. -/
theorem after_arg2 (V : Valuation τ sig (Elt F)) :
    after ops2 (after ops1 (after ops0 V)) (Proc.devRef .tc main_arg2) = V (Proc.devRef .tc main_arg2) := by
  rw [ops2_split, after_append, s2b_arg2, s2a_arg2, s1_arg2, s0_arg2]

/-- THE REFERENCE'S RUN, READ: every weakly fair execution terminates with the result buffer at the last stage's value of
    the launch contents of the three arguments, and the arguments unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v143)
          = Cert.ReferenceIdeal.ReadP.val_main_v143 (F := F) (m ((c.tc : Thread nD τ).loc main_arg0))
              (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c main_v143).trans (after_v143 _), (h c main_arg0).trans (after_arg0 _),
      (h c main_arg1).trans (after_arg1 _), (h c main_arg2).trans (after_arg2 _)⟩)
    (run_line m ρ)

end Cert.ReferenceIdeal.Line
-- ==== Proof.ReferenceRow.lean ====
/-
  The reference's last stage, read at an index, is the contraction of the row's library with the coefficient column.

  The reference builds, for every row `(b, n)` of `x`, the 23 library terms as 23 columns of one array: each polynomial
  column is a `[64, 100000]` array (the constant one, a channel of `x`, or a product of two or three channels grouped
  from the left) given a unit last axis, the 20 of them are joined along that axis in two groups (16 and 4) and then
  together, and the entrywise sine of `x` supplies the last three columns. Reading the joined array at `(b, n, l)`
  therefore lands, join by join, in exactly one unit column at `(b, n, 0)`, whose value is a product of entries
  `x (b, n, j)`: dropping the unit axis of the channel-`j` slice keeps the row-major position, `(b, n)` and `(b, n, 0)`
  both sitting at `b * 100000 + n`, and the slice at `(b, n, 0)` is `x` at `(b, n, j)`. Column by column this is `Features.feat` of the row, in the same order and grouping
  (`theta_apply`). The last stage contracts the 23 columns with column `s` of the entrywise product `mask * W`; as a sum
  over the library that is `∑ l, feat l * κ l`, which `Features.sum_feat` identifies with the term-by-term accumulation
  that defines `Features.G` (`reference_eq`).
-/
import proofs.«162445_j8753143349705_1_alg».proof.Proof.RefRead
import proofs.«162445_j8753143349705_1_alg».proof.Proof.Features
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open scoped BigOperators

namespace Cert.ReferenceIdeal.RowValue

open Cert.ReferenceIdeal Cert.ReferenceIdeal.ReadP Cert.Proof
open Cert.ReferenceIdeal.Gen

/-! ## Three reads, each over a variable array -/

/-- A `[64, 100000]` array broadcast along a new unit last axis, read at `(b, n, 0)`, is the array at `(b, n)`. -/
theorem bcast_read (y : (⟨S64x100000, .f32⟩ : BufTy).Contents (Elt Ideal)) (b : Fin 64) (n : Fin 100000) :
    broadcastInDim S64x100000x1 ![0, 1] bcast_S64x100000_S64x100000x1_0_1 y (ix3 b n (0 : Fin 1)) = y (ix2 b n) :=
  broadcastInDim_apply _ bcast_S64x100000_S64x100000x1_0_1 y (ix3 b n (0 : Fin 1)) (ix2 b n) (fun a => match a with
    | ⟨0, _⟩ => by show b.val = if (64 : Nat) = 1 then 0 else b.val; rw [if_neg (by decide)]
    | ⟨1, _⟩ => by show n.val = if (100000 : Nat) = 1 then 0 else n.val; rw [if_neg (by decide)])

/-- Channel 0 of `x` as a `[64, 100000]` array (the unit slice at offset 0 on the last axis, its unit axis dropped),
    read at `(b, n)`, is `x (b, n, 0)`: the two indices have the same row-major position `b * 100000 + n`. -/
theorem chan0_read (x : (⟨S64x100000x3, .f32⟩ : BufTy).Contents (Elt Ideal)) (b : Fin 64) (n : Fin 100000) :
    shapeCast S64x100000 (extractStridedSlice S64x100000x1 ![0, 0, 0] x slices_S64x100000x3_S64x100000x1_0_0_0)
      shapeCasts_S64x100000x1_S64x100000 (ix2 b n) = x (ix3 b n (0 : Fin 3)) := by
  refine (shapeCast_apply _ shapeCasts_S64x100000x1_S64x100000 (ix2 b n) (ix3 b n (0 : Fin 1)) ?_).trans ?_
  · rewrite [Shape.rowMajor_val_three, Shape.rowMajor_val_two]
    show (b.val * 100000 + n.val) * 1 + 0 = b.val * 100000 + n.val
    omega
  · exact extractStridedSlice_apply ![0, 0, 0] x slices_S64x100000x3_S64x100000x1_0_0_0 (ix3 b n (0 : Fin 1)) (ix3 b n (0 : Fin 3))
      (fun a => match a with
        | ⟨0, _⟩ => by show b.val = 0 + b.val; omega
        | ⟨1, _⟩ => by show n.val = 0 + n.val; omega
        | ⟨2, _⟩ => by show (0 : Nat) = 0 + 0; rfl)

/-- Channel 1 of `x` as a `[64, 100000]` array, read at `(b, n)`, is `x (b, n, 1)`. -/
theorem chan1_read (x : (⟨S64x100000x3, .f32⟩ : BufTy).Contents (Elt Ideal)) (b : Fin 64) (n : Fin 100000) :
    shapeCast S64x100000 (extractStridedSlice S64x100000x1 ![0, 0, 1] x slices_S64x100000x3_S64x100000x1_0_0_1)
      shapeCasts_S64x100000x1_S64x100000 (ix2 b n) = x (ix3 b n (1 : Fin 3)) := by
  refine (shapeCast_apply _ shapeCasts_S64x100000x1_S64x100000 (ix2 b n) (ix3 b n (0 : Fin 1)) ?_).trans ?_
  · rewrite [Shape.rowMajor_val_three, Shape.rowMajor_val_two]
    show (b.val * 100000 + n.val) * 1 + 0 = b.val * 100000 + n.val
    omega
  · exact extractStridedSlice_apply ![0, 0, 1] x slices_S64x100000x3_S64x100000x1_0_0_1 (ix3 b n (0 : Fin 1)) (ix3 b n (1 : Fin 3))
      (fun a => match a with
        | ⟨0, _⟩ => by show b.val = 0 + b.val; omega
        | ⟨1, _⟩ => by show n.val = 0 + n.val; omega
        | ⟨2, _⟩ => by show (1 : Nat) = 1 + 0; rfl)

/-- Channel 2 of `x` as a `[64, 100000]` array, read at `(b, n)`, is `x (b, n, 2)`. -/
theorem chan2_read (x : (⟨S64x100000x3, .f32⟩ : BufTy).Contents (Elt Ideal)) (b : Fin 64) (n : Fin 100000) :
    shapeCast S64x100000 (extractStridedSlice S64x100000x1 ![0, 0, 2] x slices_S64x100000x3_S64x100000x1_0_0_2)
      shapeCasts_S64x100000x1_S64x100000 (ix2 b n) = x (ix3 b n (2 : Fin 3)) := by
  refine (shapeCast_apply _ shapeCasts_S64x100000x1_S64x100000 (ix2 b n) (ix3 b n (0 : Fin 1)) ?_).trans ?_
  · rewrite [Shape.rowMajor_val_three, Shape.rowMajor_val_two]
    show (b.val * 100000 + n.val) * 1 + 0 = b.val * 100000 + n.val
    omega
  · exact extractStridedSlice_apply ![0, 0, 2] x slices_S64x100000x3_S64x100000x1_0_0_2 (ix3 b n (0 : Fin 1)) (ix3 b n (2 : Fin 3))
      (fun a => match a with
        | ⟨0, _⟩ => by show b.val = 0 + b.val; omega
        | ⟨1, _⟩ => by show n.val = 0 + n.val; omega
        | ⟨2, _⟩ => by show (2 : Nat) = 2 + 0; rfl)

/-- The constant the first column broadcasts is the real number one. -/
theorem one_bits : (FloatOps.ofBits .f32 0x3F800000#32 : Ideal .f32) = 1 := by
  show Ideal.ofBits .f32 0x3F800000#32 = 1
  simp [Ideal.ofBits, Ideal.ieee, -EReal.coe_mul]; norm_num

/-! ## The four joins, read at an index -/

/-- The 23 joined columns at a column below 20 are the 20 polynomial columns there. -/
theorem read141_lo (x : (⟨S64x100000x3, .f32⟩ : BufTy).Contents (Elt Ideal)) (b : Fin 64) (n : Fin 100000)
    (c : Nat) (hc : c < 20) :
    val_main_v141 (F := Ideal) x (ix3 b n (⟨c, by omega⟩ : Fin 23)) = val_main_v139 (F := Ideal) x (ix3 b n (⟨c, hc⟩ : Fin 20)) :=
  concatenate_pair_apply_left 2 _ _ concatenates_S64x100000x20_S64x100000x3_S64x100000x23_d2 _ rfl (ix3 b n (⟨c, hc⟩ : Fin 20))
    (fun a => match a with | ⟨0, _⟩ => rfl | ⟨1, _⟩ => rfl | ⟨2, _⟩ => rfl)

/-- The 23 joined columns at column `20 + c` are the sine columns at `c`. -/
theorem read141_hi (x : (⟨S64x100000x3, .f32⟩ : BufTy).Contents (Elt Ideal)) (b : Fin 64) (n : Fin 100000)
    (c : Nat) (hc : c < 3) :
    val_main_v141 (F := Ideal) x (ix3 b n (⟨20 + c, by omega⟩ : Fin 23)) = val_main_v140 (F := Ideal) x (ix3 b n (⟨c, hc⟩ : Fin 3)) :=
  concatenate_pair_apply_right 2 _ _ concatenates_S64x100000x20_S64x100000x3_S64x100000x23_d2 _ rfl rfl (ix3 b n (⟨c, hc⟩ : Fin 3))
    (fun a => match a with | ⟨0, _⟩ => fun _ => rfl | ⟨1, _⟩ => fun _ => rfl | ⟨2, _⟩ => fun hne => absurd rfl hne)
    (by show c + 20 = 20 + c; omega)

/-- The 20 polynomial columns at a column below 16 are the first 16 there. -/
theorem read139_lo (x : (⟨S64x100000x3, .f32⟩ : BufTy).Contents (Elt Ideal)) (b : Fin 64) (n : Fin 100000)
    (c : Nat) (hc : c < 16) :
    val_main_v139 (F := Ideal) x (ix3 b n (⟨c, by omega⟩ : Fin 20)) = val_main_v137 (F := Ideal) x (ix3 b n (⟨c, hc⟩ : Fin 16)) :=
  concatenate_pair_apply_left 2 _ _ concatenates_S64x100000x16_S64x100000x4_S64x100000x20_d2 _ rfl (ix3 b n (⟨c, hc⟩ : Fin 16))
    (fun a => match a with | ⟨0, _⟩ => rfl | ⟨1, _⟩ => rfl | ⟨2, _⟩ => rfl)

/-- The 20 polynomial columns at column `16 + c` are the last four at `c`. -/
theorem read139_hi (x : (⟨S64x100000x3, .f32⟩ : BufTy).Contents (Elt Ideal)) (b : Fin 64) (n : Fin 100000)
    (c : Nat) (hc : c < 4) :
    val_main_v139 (F := Ideal) x (ix3 b n (⟨16 + c, by omega⟩ : Fin 20)) = val_main_v138 (F := Ideal) x (ix3 b n (⟨c, hc⟩ : Fin 4)) :=
  concatenate_pair_apply_right 2 _ _ concatenates_S64x100000x16_S64x100000x4_S64x100000x20_d2 _ rfl rfl (ix3 b n (⟨c, hc⟩ : Fin 4))
    (fun a => match a with | ⟨0, _⟩ => fun _ => rfl | ⟨1, _⟩ => fun _ => rfl | ⟨2, _⟩ => fun hne => absurd rfl hne)
    (by show c + 16 = 16 + c; omega)

/-! ## A join of unit columns, read at one column -/

/-- The extents, along the joined axis, of the first `k` of `N` unit columns add up to `k`. -/
theorem unit_prefix (t : Shape) (a : Fin t.rank) (hr : S64x100000x1.rank = t.rank) (h1 : S64x100000x1.size (a.cast hr.symm) = 1)
    (N k : Nat) (hk : k ≤ N) :
    ((((List.replicate N S64x100000x1).take k)).map fun s => if h : s.rank = t.rank then s.size (a.cast h.symm) else 0).sum = k := by
  rw [List.take_replicate, List.map_replicate, dif_pos hr, h1, Nat.min_eq_left hk]
  simp

/-- Piece `k` of a join of 16 unit columns into 16 columns, read at column `k`: every piece has extent one on the joined
    axis, so the `k` pieces before piece `k` cover exactly the columns below `k`. -/
theorem piece16 {α : Type} (xs : List ((s : Shape) × (s.Idx → α))) (h : Shape.Concatenates (xs.map (·.1)) S64x100000x16 2)
    (hsh : xs.map (·.1) = List.replicate 16 S64x100000x1)
    (b : Fin 64) (n : Fin 100000) (k : Nat) (hk16 : k < 16) (hk : k < xs.length) (x₁ : S64x100000x1.Idx → α)
    (hxk : xs[k] = ⟨S64x100000x1, x₁⟩) :
    concatenate S64x100000x16 2 xs h (ix3 b n (⟨k, hk16⟩ : Fin 16)) = x₁ (ix3 b n (0 : Fin 1)) :=
  concatenate_apply_piece 2 xs h _ k hk S64x100000x1 x₁ hxk rfl k
    (by rw [List.map_take, hsh]; exact unit_prefix S64x100000x16 2 rfl rfl 16 k (by omega))
    (ix3 b n (0 : Fin 1))
    (fun a => match a with | ⟨0, _⟩ => fun _ => rfl | ⟨1, _⟩ => fun _ => rfl | ⟨2, _⟩ => fun hne => absurd rfl hne) rfl

/-- Piece `k` of a join of 4 unit columns into 4 columns, read at column `k`. -/
theorem piece4 {α : Type} (xs : List ((s : Shape) × (s.Idx → α))) (h : Shape.Concatenates (xs.map (·.1)) S64x100000x4 2)
    (hsh : xs.map (·.1) = List.replicate 4 S64x100000x1)
    (b : Fin 64) (n : Fin 100000) (k : Nat) (hk4 : k < 4) (hk : k < xs.length) (x₁ : S64x100000x1.Idx → α)
    (hxk : xs[k] = ⟨S64x100000x1, x₁⟩) :
    concatenate S64x100000x4 2 xs h (ix3 b n (⟨k, hk4⟩ : Fin 4)) = x₁ (ix3 b n (0 : Fin 1)) :=
  concatenate_apply_piece 2 xs h _ k hk S64x100000x1 x₁ hxk rfl k
    (by rw [List.map_take, hsh]; exact unit_prefix S64x100000x4 2 rfl rfl 4 k (by omega))
    (ix3 b n (0 : Fin 1))
    (fun a => match a with | ⟨0, _⟩ => fun _ => rfl | ⟨1, _⟩ => fun _ => rfl | ⟨2, _⟩ => fun hne => absurd rfl hne) rfl

/-! ## The 23 columns of the joined array, each read at `(b, n, l)`

A polynomial column `l < 20` goes through the two outer joins to unit piece `l` (of the first 16) or `l - 16` (of the
last four); that piece is the broadcast of a `[64, 100000]` array which is a channel of `x` or a product, grouped from the
left, of two or three channels: `bcast_read` strips the broadcast and the channel reads give each factor. A sine column
`20 + c` goes through the outermost join to the entrywise sine of `x` at channel `c`. -/

/-- Column 0 is the constant one. -/
theorem col0 (x : (⟨S64x100000x3, .f32⟩ : BufTy).Contents (Elt Ideal)) (b : Fin 64) (n : Fin 100000) :
    val_main_v141 (F := Ideal) x (ix3 b n (⟨0, by decide⟩ : Fin 23)) = 1 :=
  (read141_lo x b n 0 (by decide)).trans ((read139_lo x b n 0 (by decide)).trans
    ((piece16 _ _ (by rfl) b n 0 (by decide) (by show (0 : ℕ) < 16; decide) (val_main_v117 (F := Ideal)) (by rfl)).trans
    ((bcast_read (val_main_v0 (F := Ideal)) b n).trans ((val_main_v0_apply (F := Ideal) (ix2 b n)).trans one_bits))))

/-- Column 1 is channel 0. -/
theorem col1 (x : (⟨S64x100000x3, .f32⟩ : BufTy).Contents (Elt Ideal)) (b : Fin 64) (n : Fin 100000) :
    val_main_v141 (F := Ideal) x (ix3 b n (⟨1, by decide⟩ : Fin 23)) = x (ix3 b n 0) :=
  (read141_lo x b n 1 (by decide)).trans ((read139_lo x b n 1 (by decide)).trans
    ((piece16 _ _ (by rfl) b n 1 (by decide) (by show (1 : ℕ) < 16; decide) (val_main_v118 (F := Ideal) x) (by simp only [List.getElem_cons_succ, List.getElem_cons_zero])).trans
    ((bcast_read (val_main_v2 (F := Ideal) x) b n).trans (chan0_read x b n : val_main_v2 (F := Ideal) x (ix2 b n) = _))))

/-- Column 2 is channel 1. -/
theorem col2 (x : (⟨S64x100000x3, .f32⟩ : BufTy).Contents (Elt Ideal)) (b : Fin 64) (n : Fin 100000) :
    val_main_v141 (F := Ideal) x (ix3 b n (⟨2, by decide⟩ : Fin 23)) = x (ix3 b n 1) :=
  (read141_lo x b n 2 (by decide)).trans ((read139_lo x b n 2 (by decide)).trans
    ((piece16 _ _ (by rfl) b n 2 (by decide) (by show (2 : ℕ) < 16; decide) (val_main_v119 (F := Ideal) x) (by simp only [List.getElem_cons_succ, List.getElem_cons_zero])).trans
    ((bcast_read (val_main_v4 (F := Ideal) x) b n).trans (chan1_read x b n : val_main_v4 (F := Ideal) x (ix2 b n) = _))))

/-- Column 3 is channel 2. -/
theorem col3 (x : (⟨S64x100000x3, .f32⟩ : BufTy).Contents (Elt Ideal)) (b : Fin 64) (n : Fin 100000) :
    val_main_v141 (F := Ideal) x (ix3 b n (⟨3, by decide⟩ : Fin 23)) = x (ix3 b n 2) :=
  (read141_lo x b n 3 (by decide)).trans ((read139_lo x b n 3 (by decide)).trans
    ((piece16 _ _ (by rfl) b n 3 (by decide) (by show (3 : ℕ) < 16; decide) (val_main_v120 (F := Ideal) x) (by simp only [List.getElem_cons_succ, List.getElem_cons_zero])).trans
    ((bcast_read (val_main_v6 (F := Ideal) x) b n).trans (chan2_read x b n : val_main_v6 (F := Ideal) x (ix2 b n) = _))))

/-- Column 4 is `x₀ * x₀`. -/
theorem col4 (x : (⟨S64x100000x3, .f32⟩ : BufTy).Contents (Elt Ideal)) (b : Fin 64) (n : Fin 100000) :
    val_main_v141 (F := Ideal) x (ix3 b n (⟨4, by decide⟩ : Fin 23)) = x (ix3 b n 0) * x (ix3 b n 0) :=
  (read141_lo x b n 4 (by decide)).trans ((read139_lo x b n 4 (by decide)).trans
    ((piece16 _ _ (by rfl) b n 4 (by decide) (by show (4 : ℕ) < 16; decide) (val_main_v121 (F := Ideal) x) (by simp only [List.getElem_cons_succ, List.getElem_cons_zero])).trans
    ((bcast_read (val_main_v11 (F := Ideal) x) b n).trans (congrArg₂ (· * ·)
      (chan0_read x b n : val_main_v8 (F := Ideal) x (ix2 b n) = _) (chan0_read x b n : val_main_v10 (F := Ideal) x (ix2 b n) = _)))))

/-- Column 5 is `x₀ * x₁`. -/
theorem col5 (x : (⟨S64x100000x3, .f32⟩ : BufTy).Contents (Elt Ideal)) (b : Fin 64) (n : Fin 100000) :
    val_main_v141 (F := Ideal) x (ix3 b n (⟨5, by decide⟩ : Fin 23)) = x (ix3 b n 0) * x (ix3 b n 1) :=
  (read141_lo x b n 5 (by decide)).trans ((read139_lo x b n 5 (by decide)).trans
    ((piece16 _ _ (by rfl) b n 5 (by decide) (by show (5 : ℕ) < 16; decide) (val_main_v122 (F := Ideal) x) (by simp only [List.getElem_cons_succ, List.getElem_cons_zero])).trans
    ((bcast_read (val_main_v16 (F := Ideal) x) b n).trans (congrArg₂ (· * ·)
      (chan0_read x b n : val_main_v13 (F := Ideal) x (ix2 b n) = _) (chan1_read x b n : val_main_v15 (F := Ideal) x (ix2 b n) = _)))))

/-- Column 6 is `x₀ * x₂`. -/
theorem col6 (x : (⟨S64x100000x3, .f32⟩ : BufTy).Contents (Elt Ideal)) (b : Fin 64) (n : Fin 100000) :
    val_main_v141 (F := Ideal) x (ix3 b n (⟨6, by decide⟩ : Fin 23)) = x (ix3 b n 0) * x (ix3 b n 2) :=
  (read141_lo x b n 6 (by decide)).trans ((read139_lo x b n 6 (by decide)).trans
    ((piece16 _ _ (by rfl) b n 6 (by decide) (by show (6 : ℕ) < 16; decide) (val_main_v123 (F := Ideal) x) (by simp only [List.getElem_cons_succ, List.getElem_cons_zero])).trans
    ((bcast_read (val_main_v21 (F := Ideal) x) b n).trans (congrArg₂ (· * ·)
      (chan0_read x b n : val_main_v18 (F := Ideal) x (ix2 b n) = _) (chan2_read x b n : val_main_v20 (F := Ideal) x (ix2 b n) = _)))))

/-- Column 7 is `x₁ * x₁`. -/
theorem col7 (x : (⟨S64x100000x3, .f32⟩ : BufTy).Contents (Elt Ideal)) (b : Fin 64) (n : Fin 100000) :
    val_main_v141 (F := Ideal) x (ix3 b n (⟨7, by decide⟩ : Fin 23)) = x (ix3 b n 1) * x (ix3 b n 1) :=
  (read141_lo x b n 7 (by decide)).trans ((read139_lo x b n 7 (by decide)).trans
    ((piece16 _ _ (by rfl) b n 7 (by decide) (by show (7 : ℕ) < 16; decide) (val_main_v124 (F := Ideal) x) (by simp only [List.getElem_cons_succ, List.getElem_cons_zero])).trans
    ((bcast_read (val_main_v26 (F := Ideal) x) b n).trans (congrArg₂ (· * ·)
      (chan1_read x b n : val_main_v23 (F := Ideal) x (ix2 b n) = _) (chan1_read x b n : val_main_v25 (F := Ideal) x (ix2 b n) = _)))))

/-- Column 8 is `x₁ * x₂`. -/
theorem col8 (x : (⟨S64x100000x3, .f32⟩ : BufTy).Contents (Elt Ideal)) (b : Fin 64) (n : Fin 100000) :
    val_main_v141 (F := Ideal) x (ix3 b n (⟨8, by decide⟩ : Fin 23)) = x (ix3 b n 1) * x (ix3 b n 2) :=
  (read141_lo x b n 8 (by decide)).trans ((read139_lo x b n 8 (by decide)).trans
    ((piece16 _ _ (by rfl) b n 8 (by decide) (by show (8 : ℕ) < 16; decide) (val_main_v125 (F := Ideal) x) (by simp only [List.getElem_cons_succ, List.getElem_cons_zero])).trans
    ((bcast_read (val_main_v31 (F := Ideal) x) b n).trans (congrArg₂ (· * ·)
      (chan1_read x b n : val_main_v28 (F := Ideal) x (ix2 b n) = _) (chan2_read x b n : val_main_v30 (F := Ideal) x (ix2 b n) = _)))))

/-- Column 9 is `x₂ * x₂`. -/
theorem col9 (x : (⟨S64x100000x3, .f32⟩ : BufTy).Contents (Elt Ideal)) (b : Fin 64) (n : Fin 100000) :
    val_main_v141 (F := Ideal) x (ix3 b n (⟨9, by decide⟩ : Fin 23)) = x (ix3 b n 2) * x (ix3 b n 2) :=
  (read141_lo x b n 9 (by decide)).trans ((read139_lo x b n 9 (by decide)).trans
    ((piece16 _ _ (by rfl) b n 9 (by decide) (by show (9 : ℕ) < 16; decide) (val_main_v126 (F := Ideal) x) (by simp only [List.getElem_cons_succ, List.getElem_cons_zero])).trans
    ((bcast_read (val_main_v36 (F := Ideal) x) b n).trans (congrArg₂ (· * ·)
      (chan2_read x b n : val_main_v33 (F := Ideal) x (ix2 b n) = _) (chan2_read x b n : val_main_v35 (F := Ideal) x (ix2 b n) = _)))))

/-- Column 10 is `(x₀ * x₀) * x₀`. -/
theorem col10 (x : (⟨S64x100000x3, .f32⟩ : BufTy).Contents (Elt Ideal)) (b : Fin 64) (n : Fin 100000) :
    val_main_v141 (F := Ideal) x (ix3 b n (⟨10, by decide⟩ : Fin 23)) = x (ix3 b n 0) * x (ix3 b n 0) * x (ix3 b n 0) :=
  (read141_lo x b n 10 (by decide)).trans ((read139_lo x b n 10 (by decide)).trans
    ((piece16 _ _ (by rfl) b n 10 (by decide) (by show (10 : ℕ) < 16; decide) (val_main_v127 (F := Ideal) x) (by simp only [List.getElem_cons_succ, List.getElem_cons_zero])).trans
    ((bcast_read (val_main_v44 (F := Ideal) x) b n).trans (congrArg₂ (· * ·) (congrArg₂ (· * ·)
      (chan0_read x b n : val_main_v38 (F := Ideal) x (ix2 b n) = _) (chan0_read x b n : val_main_v40 (F := Ideal) x (ix2 b n) = _))
      (chan0_read x b n : val_main_v43 (F := Ideal) x (ix2 b n) = _)))))

/-- Column 11 is `(x₀ * x₀) * x₁`. -/
theorem col11 (x : (⟨S64x100000x3, .f32⟩ : BufTy).Contents (Elt Ideal)) (b : Fin 64) (n : Fin 100000) :
    val_main_v141 (F := Ideal) x (ix3 b n (⟨11, by decide⟩ : Fin 23)) = x (ix3 b n 0) * x (ix3 b n 0) * x (ix3 b n 1) :=
  (read141_lo x b n 11 (by decide)).trans ((read139_lo x b n 11 (by decide)).trans
    ((piece16 _ _ (by rfl) b n 11 (by decide) (by show (11 : ℕ) < 16; decide) (val_main_v128 (F := Ideal) x) (by simp only [List.getElem_cons_succ, List.getElem_cons_zero])).trans
    ((bcast_read (val_main_v52 (F := Ideal) x) b n).trans (congrArg₂ (· * ·) (congrArg₂ (· * ·)
      (chan0_read x b n : val_main_v46 (F := Ideal) x (ix2 b n) = _) (chan0_read x b n : val_main_v48 (F := Ideal) x (ix2 b n) = _))
      (chan1_read x b n : val_main_v51 (F := Ideal) x (ix2 b n) = _)))))

/-- Column 12 is `(x₀ * x₀) * x₂`. -/
theorem col12 (x : (⟨S64x100000x3, .f32⟩ : BufTy).Contents (Elt Ideal)) (b : Fin 64) (n : Fin 100000) :
    val_main_v141 (F := Ideal) x (ix3 b n (⟨12, by decide⟩ : Fin 23)) = x (ix3 b n 0) * x (ix3 b n 0) * x (ix3 b n 2) :=
  (read141_lo x b n 12 (by decide)).trans ((read139_lo x b n 12 (by decide)).trans
    ((piece16 _ _ (by rfl) b n 12 (by decide) (by show (12 : ℕ) < 16; decide) (val_main_v129 (F := Ideal) x) (by simp only [List.getElem_cons_succ, List.getElem_cons_zero])).trans
    ((bcast_read (val_main_v60 (F := Ideal) x) b n).trans (congrArg₂ (· * ·) (congrArg₂ (· * ·)
      (chan0_read x b n : val_main_v54 (F := Ideal) x (ix2 b n) = _) (chan0_read x b n : val_main_v56 (F := Ideal) x (ix2 b n) = _))
      (chan2_read x b n : val_main_v59 (F := Ideal) x (ix2 b n) = _)))))

/-- Column 13 is `(x₀ * x₁) * x₁`. -/
theorem col13 (x : (⟨S64x100000x3, .f32⟩ : BufTy).Contents (Elt Ideal)) (b : Fin 64) (n : Fin 100000) :
    val_main_v141 (F := Ideal) x (ix3 b n (⟨13, by decide⟩ : Fin 23)) = x (ix3 b n 0) * x (ix3 b n 1) * x (ix3 b n 1) :=
  (read141_lo x b n 13 (by decide)).trans ((read139_lo x b n 13 (by decide)).trans
    ((piece16 _ _ (by rfl) b n 13 (by decide) (by show (13 : ℕ) < 16; decide) (val_main_v130 (F := Ideal) x) (by simp only [List.getElem_cons_succ, List.getElem_cons_zero])).trans
    ((bcast_read (val_main_v68 (F := Ideal) x) b n).trans (congrArg₂ (· * ·) (congrArg₂ (· * ·)
      (chan0_read x b n : val_main_v62 (F := Ideal) x (ix2 b n) = _) (chan1_read x b n : val_main_v64 (F := Ideal) x (ix2 b n) = _))
      (chan1_read x b n : val_main_v67 (F := Ideal) x (ix2 b n) = _)))))

/-- Column 14 is `(x₀ * x₁) * x₂`. -/
theorem col14 (x : (⟨S64x100000x3, .f32⟩ : BufTy).Contents (Elt Ideal)) (b : Fin 64) (n : Fin 100000) :
    val_main_v141 (F := Ideal) x (ix3 b n (⟨14, by decide⟩ : Fin 23)) = x (ix3 b n 0) * x (ix3 b n 1) * x (ix3 b n 2) :=
  (read141_lo x b n 14 (by decide)).trans ((read139_lo x b n 14 (by decide)).trans
    ((piece16 _ _ (by rfl) b n 14 (by decide) (by show (14 : ℕ) < 16; decide) (val_main_v131 (F := Ideal) x) (by simp only [List.getElem_cons_succ, List.getElem_cons_zero])).trans
    ((bcast_read (val_main_v76 (F := Ideal) x) b n).trans (congrArg₂ (· * ·) (congrArg₂ (· * ·)
      (chan0_read x b n : val_main_v70 (F := Ideal) x (ix2 b n) = _) (chan1_read x b n : val_main_v72 (F := Ideal) x (ix2 b n) = _))
      (chan2_read x b n : val_main_v75 (F := Ideal) x (ix2 b n) = _)))))

/-- Column 15 is `(x₀ * x₂) * x₂`. -/
theorem col15 (x : (⟨S64x100000x3, .f32⟩ : BufTy).Contents (Elt Ideal)) (b : Fin 64) (n : Fin 100000) :
    val_main_v141 (F := Ideal) x (ix3 b n (⟨15, by decide⟩ : Fin 23)) = x (ix3 b n 0) * x (ix3 b n 2) * x (ix3 b n 2) :=
  (read141_lo x b n 15 (by decide)).trans ((read139_lo x b n 15 (by decide)).trans
    ((piece16 _ _ (by rfl) b n 15 (by decide) (by show (15 : ℕ) < 16; decide) (val_main_v132 (F := Ideal) x) (by simp only [List.getElem_cons_succ, List.getElem_cons_zero])).trans
    ((bcast_read (val_main_v84 (F := Ideal) x) b n).trans (congrArg₂ (· * ·) (congrArg₂ (· * ·)
      (chan0_read x b n : val_main_v78 (F := Ideal) x (ix2 b n) = _) (chan2_read x b n : val_main_v80 (F := Ideal) x (ix2 b n) = _))
      (chan2_read x b n : val_main_v83 (F := Ideal) x (ix2 b n) = _)))))

/-- Column 16 is `(x₁ * x₁) * x₁`. -/
theorem col16 (x : (⟨S64x100000x3, .f32⟩ : BufTy).Contents (Elt Ideal)) (b : Fin 64) (n : Fin 100000) :
    val_main_v141 (F := Ideal) x (ix3 b n (⟨16, by decide⟩ : Fin 23)) = x (ix3 b n 1) * x (ix3 b n 1) * x (ix3 b n 1) :=
  (read141_lo x b n 16 (by decide)).trans ((read139_hi x b n 0 (by decide)).trans
    ((piece4 _ _ (by rfl) b n 0 (by decide) (by show (0 : ℕ) < 4; decide) (val_main_v133 (F := Ideal) x) (by rfl)).trans
    ((bcast_read (val_main_v92 (F := Ideal) x) b n).trans (congrArg₂ (· * ·) (congrArg₂ (· * ·)
      (chan1_read x b n : val_main_v86 (F := Ideal) x (ix2 b n) = _) (chan1_read x b n : val_main_v88 (F := Ideal) x (ix2 b n) = _))
      (chan1_read x b n : val_main_v91 (F := Ideal) x (ix2 b n) = _)))))

/-- Column 17 is `(x₁ * x₁) * x₂`. -/
theorem col17 (x : (⟨S64x100000x3, .f32⟩ : BufTy).Contents (Elt Ideal)) (b : Fin 64) (n : Fin 100000) :
    val_main_v141 (F := Ideal) x (ix3 b n (⟨17, by decide⟩ : Fin 23)) = x (ix3 b n 1) * x (ix3 b n 1) * x (ix3 b n 2) :=
  (read141_lo x b n 17 (by decide)).trans ((read139_hi x b n 1 (by decide)).trans
    ((piece4 _ _ (by rfl) b n 1 (by decide) (by show (1 : ℕ) < 4; decide) (val_main_v134 (F := Ideal) x) (by simp only [List.getElem_cons_succ, List.getElem_cons_zero])).trans
    ((bcast_read (val_main_v100 (F := Ideal) x) b n).trans (congrArg₂ (· * ·) (congrArg₂ (· * ·)
      (chan1_read x b n : val_main_v94 (F := Ideal) x (ix2 b n) = _) (chan1_read x b n : val_main_v96 (F := Ideal) x (ix2 b n) = _))
      (chan2_read x b n : val_main_v99 (F := Ideal) x (ix2 b n) = _)))))

/-- Column 18 is `(x₁ * x₂) * x₂`. -/
theorem col18 (x : (⟨S64x100000x3, .f32⟩ : BufTy).Contents (Elt Ideal)) (b : Fin 64) (n : Fin 100000) :
    val_main_v141 (F := Ideal) x (ix3 b n (⟨18, by decide⟩ : Fin 23)) = x (ix3 b n 1) * x (ix3 b n 2) * x (ix3 b n 2) :=
  (read141_lo x b n 18 (by decide)).trans ((read139_hi x b n 2 (by decide)).trans
    ((piece4 _ _ (by rfl) b n 2 (by decide) (by show (2 : ℕ) < 4; decide) (val_main_v135 (F := Ideal) x) (by simp only [List.getElem_cons_succ, List.getElem_cons_zero])).trans
    ((bcast_read (val_main_v108 (F := Ideal) x) b n).trans (congrArg₂ (· * ·) (congrArg₂ (· * ·)
      (chan1_read x b n : val_main_v102 (F := Ideal) x (ix2 b n) = _) (chan2_read x b n : val_main_v104 (F := Ideal) x (ix2 b n) = _))
      (chan2_read x b n : val_main_v107 (F := Ideal) x (ix2 b n) = _)))))

/-- Column 19 is `(x₂ * x₂) * x₂`. -/
theorem col19 (x : (⟨S64x100000x3, .f32⟩ : BufTy).Contents (Elt Ideal)) (b : Fin 64) (n : Fin 100000) :
    val_main_v141 (F := Ideal) x (ix3 b n (⟨19, by decide⟩ : Fin 23)) = x (ix3 b n 2) * x (ix3 b n 2) * x (ix3 b n 2) :=
  (read141_lo x b n 19 (by decide)).trans ((read139_hi x b n 3 (by decide)).trans
    ((piece4 _ _ (by rfl) b n 3 (by decide) (by show (3 : ℕ) < 4; decide) (val_main_v136 (F := Ideal) x) (by simp only [List.getElem_cons_succ, List.getElem_cons_zero])).trans
    ((bcast_read (val_main_v116 (F := Ideal) x) b n).trans (congrArg₂ (· * ·) (congrArg₂ (· * ·)
      (chan2_read x b n : val_main_v110 (F := Ideal) x (ix2 b n) = _) (chan2_read x b n : val_main_v112 (F := Ideal) x (ix2 b n) = _))
      (chan2_read x b n : val_main_v115 (F := Ideal) x (ix2 b n) = _)))))

/-- Column 20 is the sine of channel 0. -/
theorem col20 (x : (⟨S64x100000x3, .f32⟩ : BufTy).Contents (Elt Ideal)) (b : Fin 64) (n : Fin 100000) :
    val_main_v141 (F := Ideal) x (ix3 b n (⟨20, by decide⟩ : Fin 23)) = Ideal.sin (x (ix3 b n 0)) :=
  (read141_hi x b n 0 (by decide)).trans rfl

/-- Column 21 is the sine of channel 1. -/
theorem col21 (x : (⟨S64x100000x3, .f32⟩ : BufTy).Contents (Elt Ideal)) (b : Fin 64) (n : Fin 100000) :
    val_main_v141 (F := Ideal) x (ix3 b n (⟨21, by decide⟩ : Fin 23)) = Ideal.sin (x (ix3 b n 1)) :=
  (read141_hi x b n 1 (by decide)).trans rfl

/-- Column 22 is the sine of channel 2. -/
theorem col22 (x : (⟨S64x100000x3, .f32⟩ : BufTy).Contents (Elt Ideal)) (b : Fin 64) (n : Fin 100000) :
    val_main_v141 (F := Ideal) x (ix3 b n (⟨22, by decide⟩ : Fin 23)) = Ideal.sin (x (ix3 b n 2)) :=
  (read141_hi x b n 2 (by decide)).trans rfl

/-! ## The joined 23 columns at an index are the row's library -/

/-- **θ at an index.** The joined array at `(b, n, l)` is term `l` of the library of row `(b, n)` of `x`: column by column,
    what was read above is the entry of `Features.feat` at that place, in the same order and grouping. -/
theorem theta_apply (x : (⟨S64x100000x3, .f32⟩ : BufTy).Contents (Elt Ideal)) (b : Fin 64) (n : Fin 100000) (l : Fin 23) :
    val_main_v141 (F := Ideal) x (ix3 b n l) = Features.feat (fun j => x (ix3 b n j)) l :=
  match l with
  | ⟨0, _⟩ => col0 x b n
  | ⟨1, _⟩ => col1 x b n
  | ⟨2, _⟩ => col2 x b n
  | ⟨3, _⟩ => col3 x b n
  | ⟨4, _⟩ => col4 x b n
  | ⟨5, _⟩ => col5 x b n
  | ⟨6, _⟩ => col6 x b n
  | ⟨7, _⟩ => col7 x b n
  | ⟨8, _⟩ => col8 x b n
  | ⟨9, _⟩ => col9 x b n
  | ⟨10, _⟩ => col10 x b n
  | ⟨11, _⟩ => col11 x b n
  | ⟨12, _⟩ => col12 x b n
  | ⟨13, _⟩ => col13 x b n
  | ⟨14, _⟩ => col14 x b n
  | ⟨15, _⟩ => col15 x b n
  | ⟨16, _⟩ => col16 x b n
  | ⟨17, _⟩ => col17 x b n
  | ⟨18, _⟩ => col18 x b n
  | ⟨19, _⟩ => col19 x b n
  | ⟨20, _⟩ => col20 x b n
  | ⟨21, _⟩ => col21 x b n
  | ⟨22, _⟩ => col22 x b n
  | ⟨l + 23, h⟩ => absurd h (by omega)

/-! ## The contraction -/

/-- THE REFERENCE IS `G`: its last stage (the contraction of the joined 23 columns with `mask * W`) is, index by index,
    the term-by-term contraction `Features.G` of the same three arrays. -/
theorem reference_eq (x : (⟨S64x100000x3, .f32⟩ : BufTy).Contents (Elt Ideal)) (W mask : (⟨S23x3, .f32⟩ : BufTy).Contents (Elt Ideal)) :
    val_main_v143 (F := Ideal) x W mask = Features.G x W mask := by
  funext i
  obtain ⟨b, n, s, rfl⟩ : ∃ (b : Fin 64) (n : Fin 100000) (s : Fin 3), i = ix3 b n s := ⟨i 0, i 1, i 2, eq_ix3 i⟩
  rw [val_main_v143_apply]
  -- the two operand indices of term `k` of the contraction at `(b, n, s)` are `(b, n, k)` and `(k, s)`
  have hl : ∀ k : Fin 23, lidx_main_v143 (ix3 b n s) k = ix3 b n k := fun k =>
    funext fun a => match a with | ⟨0, _⟩ => rfl | ⟨1, _⟩ => rfl | ⟨2, _⟩ => rfl
  have hr : ∀ k : Fin 23, ridx_main_v143 (ix3 b n s) k = ix2 k s := fun k =>
    funext fun a => match a with | ⟨0, _⟩ => rfl | ⟨1, _⟩ => rfl
  have hterm : ∀ k : Fin 23,
      val_main_v141 (F := Ideal) x (lidx_main_v143 (ix3 b n s) k) * val_main_v142 (F := Ideal) W mask (ridx_main_v143 (ix3 b n s) k)
        = Features.feat (fun j => x (ix3 b n j)) k * (mask (ix2 k s) * W (ix2 k s)) := fun k => by
    rw [hl k, hr k, theta_apply x b n k]
    rfl
  rw [Finset.sum_congr rfl fun k _ => hterm k]
  exact Features.sum_feat (fun j => x (ix3 b n j)) (fun l => mask (ix2 l s) * W (ix2 l s))

end Cert.ReferenceIdeal.RowValue
-- ==== Proof.lean ====
/-
  The five claims of `Cert.Claim` for a sparse-regression library contracted against a masked coefficient matrix.

  Both programs compute, for every row `(b, n)` of `x` and every output channel `s`, the contraction of the row's 23
  library terms (the constant, the three channels, their six products of two and ten products of three, and the three
  sines) with column `s` of `mask * W`. The kernel walks a 64 × 25 grid of blocks of 4000 rows and accumulates the
  contraction term by term from the constant term's coefficient; the reference builds the 23 columns for the whole
  array, joins them, and contracts once. On the extended reals the two are one function, `Features.G`: a left fold is
  the sum because addition is associative there, and the constant term contributes its coefficient because
  `1 * κ = κ`. Nothing in that uses finiteness, so the precondition is carried but never opened.

  The kernel's run is read off its frame: each point's block is `G` restricted to the block (`KernelRow`), and the
  blocks tile the array (`KernelArray`). The reference's run is a straight line of 145 host operations taken in the
  three stretches it is printed in (`RefLine`, `RefStages`), and its last stage read at an index is `G`
  (`ReferenceRow`). The idealization rewrote no operation, so what it preserves is vacuous.
-/
import proofs.«162445_j8753143349705_1_alg».proof.Defs
import proofs.«162445_j8753143349705_1_alg».proof.Proof.Gen.Kernel
import proofs.«162445_j8753143349705_1_alg».proof.Proof.Gen.Kernel.Frame
import proofs.«162445_j8753143349705_1_alg».proof.Proof.Gen.KernelIdeal
import proofs.«162445_j8753143349705_1_alg».proof.Proof.Gen.KernelIdeal.Frame
import proofs.«162445_j8753143349705_1_alg».proof.Proof.Gen.ReferenceIdeal
import proofs.«162445_j8753143349705_1_alg».proof.Proof.Gen.Pre_finite_inputs
import proofs.«162445_j8753143349705_1_alg».proof.Proof.Features
import proofs.«162445_j8753143349705_1_alg».proof.Proof.KernelArray
import proofs.«162445_j8753143349705_1_alg».proof.Proof.RefStages
import proofs.«162445_j8753143349705_1_alg».proof.Proof.ReferenceRow
import Idealize.ShloMosaic.Adequacy
import Idealize.ShloMosaic.Init

noncomputable section

open Idealize.ShloMosaic Idealize.ShloMosaic.TcCoe Idealize.SL.Sem

namespace Cert.Proof.Claims

/-- The word-level kernel runs and leaves its arguments as they were: its frame, whole. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Line.run_value (F := Ideal) m ρ)

/-- From memories that agree on the three arguments, the kernel's output array and the reference's result are both
    `Features.G` of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Features.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨(h c).1.trans ?_, (h c).2⟩)
    (Cert.ReferenceIdeal.Line.run_value (F := Ideal) m' ρ')
  rw [Cert.ReferenceIdeal.RowValue.reference_eq, (hagree c).1, (hagree c).2.1, (hagree c).2.2]

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_reference, trivial, Claims.algebraic⟩

end Cert.Proof

end
